-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S4096 : Shape := ⟨1, ![4096]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg14 : FVec F S64x64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg10 : FVec F S128x128 .f32) (main_arg11 : FVec F S128 .f32) (main_arg12 : FVec F S128x64 .f32) (main_arg13 : FVec F S64 .f32) (main_arg14 : FVec F S64x64 .f32) (main_arg15 : FVec F S64 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg12
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S64x64 .f32) (main_arg15 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : IVec S4096 32) (main_arg4 : FVec F S128x256 .f32) (main_arg5 : FVec F S256 .f32) (main_arg6 : FVec F S256x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S64x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S4096 : Shape := ⟨1, ![4096]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x128 : Shape := ⟨2, ![1, 128]⟩
abbrev S4096x1 : Shape := ⟨2, ![4096, 1]⟩
abbrev S4096x128 : Shape := ⟨2, ![4096, 128]⟩
abbrev S1x64 : Shape := ⟨2, ![1, 64]⟩
abbrev S4096x64 : Shape := ⟨2, ![4096, 64]⟩

abbrev nBuf : Space → Nat
  | .hbm => 99
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S4096, .i32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x256, .f32⟩
  | .hbm, ⟨60, _⟩ => ⟨S50000x256, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .f32⟩
  | .hbm, ⟨73, _⟩ => ⟨S_, .f32⟩
  | .hbm, ⟨74, _⟩ => ⟨S50000x256, .f32⟩
  | .hbm, ⟨75, _⟩ => ⟨S800000x1, .i32⟩
  | .hbm, ⟨76, _⟩ => ⟨S50000x256, .f32⟩
  | .hbm, ⟨77, _⟩ => ⟨S50000x1, .f32⟩
  | .hbm, ⟨78, _⟩ => ⟨S50000x256, .f32⟩
  | .hbm, ⟨79, _⟩ => ⟨S50000x256, .f32⟩
  | .hbm, ⟨80, _⟩ => ⟨S1x128, .f32⟩
  | .hbm, ⟨81, _⟩ => ⟨S50000x128, .f32⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S4096x128, .f32⟩
  | .hbm, ⟨91, _⟩ => ⟨S1x128, .f32⟩
  | .hbm, ⟨92, _⟩ => ⟨S4096x128, .f32⟩
  | .hbm, ⟨93, _⟩ => ⟨S1x128, .f32⟩
  | .hbm, ⟨94, _⟩ => ⟨S4096x128, .f32⟩
  | .hbm, ⟨95, _⟩ => ⟨S1x64, .f32⟩
  | .hbm, ⟨96, _⟩ => ⟨S4096x64, .f32⟩
  | .hbm, ⟨97, _⟩ => ⟨S1x64, .f32⟩
  | .hbm, ⟨98, _⟩ => ⟨S4096x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S4096x128, .f32⟩
  | .local _ .vmem, ⟨13, _⟩ => ⟨S128x128, .f32⟩
  | .local _ .vmem, ⟨14, _⟩ => ⟨S1x128, .f32⟩
  | .local _ .vmem, ⟨15, _⟩ => ⟨S4096x128, .f32⟩
  | .local _ .vmem, ⟨16, _⟩ => ⟨S4096x128, .f32⟩
  | .local _ .vmem, ⟨17, _⟩ => ⟨S128x128, .f32⟩
  | .local _ .vmem, ⟨18, _⟩ => ⟨S1x128, .f32⟩
  | .local _ .vmem, ⟨19, _⟩ => ⟨S4096x128, .f32⟩
  | .local _ .vmem, ⟨20, _⟩ => ⟨S4096x128, .f32⟩
  | .local _ .vmem, ⟨21, _⟩ => ⟨S128x64, .f32⟩
  | .local _ .vmem, ⟨22, _⟩ => ⟨S1x64, .f32⟩
  | .local _ .vmem, ⟨23, _⟩ => ⟨S4096x64, .f32⟩
  | .local _ .vmem, ⟨24, _⟩ => ⟨S4096x64, .f32⟩
  | .local _ .vmem, ⟨25, _⟩ => ⟨S64x64, .f32⟩
  | .local _ .vmem, ⟨26, _⟩ => ⟨S1x64, .f32⟩
  | .local _ .vmem, ⟨27, _⟩ => ⟨S4096x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_cst_3 : Ref sig .tc := ⟨.hbm, 30, rfl⟩
abbrev main_v8 : Ref sig .tc := ⟨.hbm, 31, rfl⟩
abbrev main_v9 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v10 : Ref sig .tc := ⟨.hbm, 36, rfl⟩
abbrev main_cst_5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_6 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_c_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_10 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_11 : Ref sig .tc := ⟨.hbm, 82, rfl⟩
abbrev main_v49 : Ref sig .tc := ⟨.hbm, 83, rfl⟩
abbrev main_v50 : Ref sig .tc := ⟨.hbm, 84, rfl⟩
abbrev main_c_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc5_stg0_0 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc5_sem0_0 : DmaSem sig := 24
abbrev cc5_sem1_0 : DmaSem sig := 25
abbrev cc5_sem2_0 : DmaSem sig := 26
abbrev cc5_sem3_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4096x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S4096x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4096x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S4096x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S4096x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S128_S1x128 : S128.ShapeCasts S1x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S4096 : S_.BroadcastsInDim S4096 (![] : Fin 0 → Fin S4096.rank)
  bcast_S4096_S4096x1_0 : S4096.BroadcastsInDim S4096x1 (![0] : Fin 1 → Fin S4096x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  broadcasts_S1x128_S4096x128 : S1x128.Broadcasts S4096x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S4096x1_S4096x128_1_0_n_n_0_1_1128_wf : GatherDims.WF S50000x128 S4096x1 S4096x128 [1] [0] [] [0] [] 1 ![1, 128]
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S4096x128.size a
  hwx2_3 : ∀ i : grid2.Coords, EltTy.bits .f32 = 32 ∨ (Rect.block (s := S4096x128) S4096x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S4096x128.size a
  hwx3_0 : ∀ i : grid3.Coords, EltTy.bits .f32 = 32 ∨ (Rect.block (s := S4096x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S4096x128.size a
  hwx3_3 : ∀ i : grid3.Coords, EltTy.bits .f32 = 32 ∨ (Rect.block (s := S4096x128) S4096x128.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S4096x128.size a
  hwx4_0 : ∀ i : grid4.Coords, EltTy.bits .f32 = 32 ∨ (Rect.block (s := S4096x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S4096x64.size a
  hwx4_3 : ∀ i : grid4.Coords, EltTy.bits .f32 = 32 ∨ (Rect.block (s := S4096x64) S4096x64.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S4096x64.size a
  hwx5_0 : ∀ i : grid5.Coords, EltTy.bits .f32 = 32 ∨ (Rect.block (s := S4096x64) S4096x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S4096x64.size a ≤ S4096x64.size a
  hwx5_3 : ∀ i : grid5.Coords, EltTy.bits .f32 = 32 ∨ (Rect.block (s := S4096x64) S4096x64.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S4096x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S4096x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S4096x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S4096x128.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v55) S4096x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S4096x64.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S4096x64.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S4096x64.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S4096 : Shape := ⟨1, ![4096]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S4096x1 : Shape := ⟨2, ![4096, 1]⟩
abbrev S4096x128 : Shape := ⟨2, ![4096, 128]⟩
abbrev S4096x64 : Shape := ⟨2, ![4096, 64]⟩
abbrev S1x64 : Shape := ⟨2, ![1, 64]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S4096, .i32⟩
  | 4 => ⟨S128x256, .f32⟩
  | 5 => ⟨S256, .f32⟩
  | 6 => ⟨S256x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S64x64, .f32⟩
  | 15 => ⟨S64, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x1, .f32⟩
  | 57 => ⟨S50000x128, .f32⟩
  | 58 => ⟨S50000x128, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .f32⟩
  | 83 => ⟨S_, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x256, .f32⟩
  | 92 => ⟨S50000x256, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x256, .f32⟩
  | 102 => ⟨S_, .f32⟩
  | 103 => ⟨S50000x256, .f32⟩
  | 104 => ⟨S800000x1, .i32⟩
  | 105 => ⟨S50000x256, .f32⟩
  | 106 => ⟨S50000x1, .f32⟩
  | 107 => ⟨S50000x256, .f32⟩
  | 108 => ⟨S50000x256, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S4096x128, .f32⟩
  | 125 => ⟨S4096x128, .f32⟩
  | 126 => ⟨S1x128, .f32⟩
  | 127 => ⟨S4096x128, .f32⟩
  | _ => ⟨S50000x128, .f32⟩

abbrev hbmTy0_1 (i : Nat) : BufTy := match i % 128 with
  | 0 => ⟨S4096x128, .f32⟩
  | 1 => ⟨S_, .f32⟩
  | 2 => ⟨S4096x128, .f32⟩
  | 3 => ⟨S4096x128, .f32⟩
  | 4 => ⟨S4096x128, .f32⟩
  | 5 => ⟨S1x128, .f32⟩
  | 6 => ⟨S4096x128, .f32⟩
  | 7 => ⟨S4096x128, .f32⟩
  | 8 => ⟨S4096x64, .f32⟩
  | 9 => ⟨S1x64, .f32⟩
  | 10 => ⟨S4096x64, .f32⟩
  | 11 => ⟨S4096x64, .f32⟩
  | 12 => ⟨S_, .f32⟩
  | 13 => ⟨S4096x64, .f32⟩
  | 14 => ⟨S4096x64, .f32⟩
  | 15 => ⟨S4096x64, .f32⟩
  | 16 => ⟨S1x64, .f32⟩
  | 17 => ⟨S4096x64, .f32⟩
  | 18 => ⟨S4096x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_cst_3 : Ref sig .tc := ⟨.hbm, 30, rfl⟩
abbrev main_v8 : Ref sig .tc := ⟨.hbm, 31, rfl⟩
abbrev main_v9 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v10 : Ref sig .tc := ⟨.hbm, 36, rfl⟩
abbrev main_cst_5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_6 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call2_cst : Ref sig .tc := ⟨.hbm, 63, rfl⟩
abbrev main_call2_v0 : Ref sig .tc := ⟨.hbm, 64, rfl⟩
abbrev main_v33 : Ref sig .tc := ⟨.hbm, 65, rfl⟩
abbrev main_cst_8 : Ref sig .tc := ⟨.hbm, 66, rfl⟩
abbrev main_v34 : Ref sig .tc := ⟨.hbm, 67, rfl⟩
abbrev main_cst_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_10 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_11 : Ref sig .tc := ⟨.hbm, 76, rfl⟩
abbrev main_call3_v0 : Ref sig .tc := ⟨.hbm, 77, rfl⟩
abbrev main_call3_v1 : Ref sig .tc := ⟨.hbm, 78, rfl⟩
abbrev main_v41 : Ref sig .tc := ⟨.hbm, 79, rfl⟩
abbrev main_cst_12 : Ref sig .tc := ⟨.hbm, 80, rfl⟩
abbrev main_v42 : Ref sig .tc := ⟨.hbm, 81, rfl⟩
abbrev main_v43 : Ref sig .tc := ⟨.hbm, 82, rfl⟩
abbrev main_cst_13 : Ref sig .tc := ⟨.hbm, 83, rfl⟩
abbrev main_call4_v0 : Ref sig .tc := ⟨.hbm, 84, rfl⟩
abbrev main_call4_v1 : Ref sig .tc := ⟨.hbm, 85, rfl⟩
abbrev main_v44 : Ref sig .tc := ⟨.hbm, 86, rfl⟩
abbrev main_cst_14 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_15 : Ref sig .tc := ⟨.hbm, 93, rfl⟩
abbrev main_v50 : Ref sig .tc := ⟨.hbm, 94, rfl⟩
abbrev main_v51 : Ref sig .tc := ⟨.hbm, 95, rfl⟩
abbrev main_c_16 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_17 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call5_cst : Ref sig .tc := ⟨.hbm, 113, rfl⟩
abbrev main_call5_v0 : Ref sig .tc := ⟨.hbm, 114, rfl⟩
abbrev main_v67 : Ref sig .tc := ⟨.hbm, 115, rfl⟩
abbrev main_c_18 : Ref sig .tc := ⟨.hbm, 116, rfl⟩
abbrev main_v68 : Ref sig .tc := ⟨.hbm, 117, rfl⟩
abbrev main_v69 : Ref sig .tc := ⟨.hbm, 118, rfl⟩
abbrev main_c_19 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_call6_cst : Ref sig .tc := ⟨.hbm, 129, rfl⟩
abbrev main_call6_v0 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_call7_cst : Ref sig .tc := ⟨.hbm, 140, rfl⟩
abbrev main_call7_v0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S4096x1_S4096x128_1_0_n_n_0_1_1128_wf : GatherDims.WF S50000x128 S4096x1 S4096x128 [1] [0] [] [0] [] 1 ![1, 128]
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x64_S4096x64_1_0_0_1_n_n_wf : DotDims.WF S4096x64 S64x64 S4096x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.Lin.lean ====
/-
  A dense layer on the extended reals, index by index: entry (r, j) of `X · W + b` is the sum over the inner axis of
  `X (r, k) * W (k, j)`, plus `b j`; with `relu` the positive part `max · 0` of that. Both programs compute each of
  their six dense layers as this function of the same three arrays: the kernel by a matrix product into a zero
  accumulator over row blocks, the reference by one contraction of the whole arrays. A sum on the extended reals does
  not depend on how its terms are grouped, so no tiling of the rows changes an entry.
-/
import Idealize.ShloMosaic.PureOps.Ideal
import Idealize.ShloMosaic.PureOps.Ideal.Laws
import Idealize.ShloMosaic.Lib.ValueIdx

noncomputable section

open scoped BigOperators

namespace Cert.Lin

open Idealize.ShloMosaic Idealize.ShloMosaic.ValueIdx

/-- The last step of a layer: the positive part when the layer has a relu, the identity when it has none. -/
def post (relu : Bool) (s : EReal) : EReal := cond relu (max s 0) s

theorem post_true (s : EReal) : post true s = max s 0 := rfl
theorem post_false (s : EReal) : post false s = s := rfl

/-- Entry (r, j) of the layer `post (X · W + b)`. -/
def lin {M K N : Nat} (relu : Bool) (X : (⟨2, ![M, K]⟩ : Shape).Idx → EReal) (W : (⟨2, ![K, N]⟩ : Shape).Idx → EReal)
    (b : Fin N → EReal) : (⟨2, ![M, N]⟩ : Shape).Idx → EReal :=
  fun i => post relu ((∑ k : Fin K, X (ix2 (i 0) k) * W (ix2 k (i 1))) + b (i 1))

theorem lin_apply {M K N : Nat} (relu : Bool) (X : (⟨2, ![M, K]⟩ : Shape).Idx → EReal) (W : (⟨2, ![K, N]⟩ : Shape).Idx → EReal)
    (b : Fin N → EReal) (r : Fin M) (j : Fin N) :
    lin relu X W b (ix2 r j) = post relu ((∑ k : Fin K, X (ix2 r k) * W (ix2 k j)) + b j) := rfl

/-- A layer is row-wise: rows `o, o+1, …` of the layer of `X` are the layer of rows `o, o+1, …` of `X`. Stated for a
    block of `B` rows read out of `M` at a row map `ρ` (a block of consecutive rows is `ρ r = o + r`). -/
theorem lin_rows {M B K N : Nat} (relu : Bool) (X : (⟨2, ![M, K]⟩ : Shape).Idx → EReal) (W : (⟨2, ![K, N]⟩ : Shape).Idx → EReal)
    (b : Fin N → EReal) (ρ : Fin B → Fin M) (r : Fin B) (j : Fin N) :
    lin relu X W b (ix2 (ρ r) j) = lin relu (fun y : (⟨2, ![B, K]⟩ : Shape).Idx => X (ix2 (ρ (y 0)) (y 1))) W b (ix2 r j) := rfl

end Cert.Lin

end
-- ==== Proof.KBody0.lean ====
/-
  Region 0's body at an index, on the extended reals. The body loads a block of 5000 rows of its input array, the whole
  128 × 256 weight and the bias row, rounds the two matrices to bf16 (the identity on extended reals), multiplies them into
  a zero accumulator and adds the bias row to every row; where the layer has a relu it then takes the positive part. So
  entry (p, q) of what it stores is the sum over k of `x (p, k) * w (k, q)`, plus `b (0, q)`, under the layer's last step:
  the dense layer `Cert.Lin.lin` of the block.
-/
import proofs.«137440_j38895223833221_1_alg».proof.Proof.Gen.KernelIdeal.Skeleton
import proofs.«137440_j38895223833221_1_alg».proof.Proof.Lin
import Idealize.ShloMosaic.Lib.Pipeline.Value
import Idealize.ShloMosaic.Lib.ValueIdx
import Idealize.ShloMosaic.PureOps.Ideal.Laws

noncomputable section

open scoped BigOperators

namespace Cert.KernelIdeal.Body0

open Cert.KernelIdeal Cert.KernelIdeal.Gen Idealize.ShloMosaic Idealize.ShloMosaic.ValueIdx Cert.Lin

/-! The operand indices of the matrix product at output index `i` and contraction index `q`: (i 0, q) on the left,
    (q, i 1) on the right. -/

theorem lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The matrix product into a zero accumulator, at an entry: the sum over the inner axis. -/
theorem matmul_entry (x : FVec Ideal S5000x128 .bf16) (w : FVec Ideal S128x256 .bf16) (p : Fin 5000) (q : Fin 256) :
    FloatOps.matmul dot_S5000x128_S128x256_S5000x256_1_0_0_1_n_n none x w (constant (F := Ideal) S5000x256 .f32 0x00000000#32) (ix2 p q)
      = ∑ k : Fin 128, x (ix2 p k) * w (ix2 k q) := by
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast over the rows, at an entry: the row's entry in that column. -/
theorem bias_entry (b : Vec Ideal S1x256 .f32) (p : Fin 5000) (q : Fin 256) :
    broadcastTo S5000x256 b broadcasts_S1x256_S5000x256 (ix2 p q) = b (ix2 0 q) := by
  exact broadcastTo_apply b broadcasts_S1x256_S5000x256 (ix2 p q) (ix2 0 q) (fun a => by
    match a with
    | ⟨0, _⟩ => rfl
    | ⟨1, _⟩ => rfl)

/-- What the body stores is the dense layer of its three loads. -/
theorem pay_eq (x0 : Vec Ideal S5000x128 .f32) (x1 : Vec Ideal S128x256 .f32) (x2 : Vec Ideal S1x256 .f32) :
    k0_pay1 (F := Ideal) x0 x1 x2 = lin true x0 x1 (fun j => x2 (ix2 0 j)) := by
  funext i
  obtain ⟨p, q, rfl⟩ : ∃ (p : Fin 5000) (q : Fin 256), i = ix2 p q := ⟨i 0, i 1, eq_ix2 i⟩
  rw [lin_apply, post_true]
  unfold k0_pay1
  simp only [shapeCast_self, matmul, maximumf_apply, addf_apply, broadcast_apply]
  rw [matmul_entry, bias_entry]
  show max _ (Ideal.ofBits .f32 0x00000000#32) = _
  rw [Ideal.ofBits_zero_f32]
  rfl

end Cert.KernelIdeal.Body0

end
-- ==== Proof.KRegion0.lean ====
/-
  Region 0 as one function of its arrays. The pallas_call walks the row blocks of its input array (window 0; 10 blocks of
  5000 rows), with the weight (window 1) and the bias row (window 2) whole at every point, and writes block `t` of its
  50000 × 256 result (window 3) at point `t`. The body leaves in the result's buffer the dense layer of the block it
  loaded (`Body0.pay_eq`), and a dense layer is computed row by row, so what point `t` writes back is block `t` of the
  dense layer of the WHOLE arrays. The blocks tile the result, so after the region the result array is that layer.
-/
import proofs.«137440_j38895223833221_1_alg».proof.Proof.Gen.KernelIdeal.Frame
import proofs.«137440_j38895223833221_1_alg».proof.Proof.KBody0
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Cert.Lin
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input's and the result's windows are at row block `t`, the weight and the bias
    row at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 10 := lt_of_lt_of_eq t.isLt N_0

/-- Row `p` of block `t` is row `5000 t + p` of the array. -/
def row (t : Fin cfg0.N) (p : Fin 5000) : Fin 50000 := ⟨t.val * 5000 + p.val, by have := t_lt t; have := p.isLt; omega⟩

/-- The result array after the region, as a function of the three arrays the region reads. -/
abbrev G (c : Dev nD) : S50000x256.Idx → EReal :=
  lin true (V c main_v28 : S50000x128.Idx → EReal) (V c main_arg4 : S128x256.Idx → EReal) (fun j => (V c main_v29 : S1x256.Idx → EReal) (ix2 0 j))

/-! The input blocks at point `t`, read where the arrays hold them. -/

theorem read0 (c : Dev nD) (t : Fin cfg0.N) (p : Fin 5000) (k : Fin 128) :
    (iblk0 V c 0 t : S5000x128.Idx → EReal) (ix2 p k) = (V c main_v28 : S50000x128.Idx → EReal) (ix2 (row t p) k) := by
  show (V c main_v28 : S50000x128.Idx → EReal) (((cfg0.win 0).blk t).view.emb (ix2 p k)) = _
  have e : ((cfg0.win 0).blk t).view.emb (ix2 p k) = ix2 (row t p) k := by
    obtain ⟨e0, e1, -⟩ := idx_facts t
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  rw [e]

theorem read1 (c : Dev nD) (t : Fin cfg0.N) (k : Fin 128) (q : Fin 256) :
    (iblk0 V c 1 t : S128x256.Idx → EReal) (ix2 k q) = (V c main_arg4 : S128x256.Idx → EReal) (ix2 k q) := by
  show (V c main_arg4 : S128x256.Idx → EReal) (((cfg0.win 1).blk t).view.emb (ix2 k q)) = _
  have e : ((cfg0.win 1).blk t).view.emb (ix2 k q) = ix2 k q := by
    obtain ⟨-, -, e0, e1, -⟩ := idx_facts t
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  rw [e]

theorem read2 (c : Dev nD) (t : Fin cfg0.N) (q : Fin 256) :
    (iblk0 V c 2 t : S1x256.Idx → EReal) (ix2 0 q) = (V c main_v29 : S1x256.Idx → EReal) (ix2 0 q) := by
  show (V c main_v29 : S1x256.Idx → EReal) (((cfg0.win 2).blk t).view.emb (ix2 0 q)) = _
  have e : ((cfg0.win 2).blk t).view.emb (ix2 (0 : Fin 1) q) = ix2 0 q := by
    obtain ⟨-, -, -, -, e0, e1, -⟩ := idx_facts t
    funext a; apply Fin.ext
    match a with
    | ⟨0, _⟩ => show win0_2.index t (0 : Fin 2) * 1 + 1 * 0 = 0; omega
    | ⟨1, _⟩ => show win0_2.index t (1 : Fin 2) * 256 + 1 * q.val = q.val; omega
  rw [e]

/-- Entry (p, q) of the result's block `t` sits at (5000 t + p, q) of the array. -/
theorem emb3 (t : Fin cfg0.N) (p : Fin 5000) (q : Fin 256) :
    ((cfg0.win 3).blk t).view.emb (ix2 p q) = ix2 (row t p) q := by
  obtain ⟨-, -, -, -, -, -, e0, e1⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 256 + 1 * q.val = q.val; omega

/-- What point `t` writes back is block `t` of the dense layer of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x256) hz]
  rw [Body0.pay_eq]
  funext j
  obtain ⟨p, q, rfl⟩ : ∃ (p : Fin 5000) (q : Fin 256), j = ix2 p q := ⟨j 0, j 1, eq_ix2 j⟩
  show lin true (iblk0 V c 0 t : S5000x128.Idx → EReal) (iblk0 V c 1 t : S128x256.Idx → EReal) (fun j => (iblk0 V c 2 t : S1x256.Idx → EReal) (ix2 0 j)) (ix2 p q)
      = G V c (((cfg0.win 3).blk t).view.emb (ix2 p q))
  rw [emb3]
  unfold G
  rw [lin_apply, lin_apply, read2]
  refine congrArg (fun s => post true (s + _)) (Finset.sum_congr rfl fun k _ => ?_)
  rw [read0, read1]

/-- An index of the result array is in block `t` iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v30).slice (win0_3.rect t)).set ↔ _
  rw [View.set_slice_whole, Rect.mem_set_unit]
  exact Iff.rfl

/-- Row `r` of the result is in the block of point `r / 5000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 5000 < cfg0.N := lt_of_lt_of_eq (by omega : (i 0).val / 5000 < 10) N_0.symm
  refine ⟨⟨(i 0).val / 5000, hN⟩, flush0_3 _, ?_⟩
  rw [mem_blk]
  obtain ⟨-, -, -, -, -, -, e0, e1⟩ := idx_facts ⟨(i 0).val / 5000, hN⟩
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win0_3.index ⟨(i 0).val / 5000, hN⟩ (1 : Fin 2) * 256 ≤ (i 1).val ∧ (i 1).val < win0_3.index ⟨(i 0).val / 5000, hN⟩ (1 : Fin 2) * 256 + 256; rw [e1]; omega

/-- After region 0 its result array holds the dense layer of the arrays it read. -/
theorem final (c : Dev nD) : (dat0 V c).arrAt 3 cfg0.N = G V c :=
  (dat0 V c).arrAt_eq_of_cover 3 (G V c) (fun t _ => flushed_eq V c t) cover

end Cert.KernelIdeal.Region0

end
-- ==== Proof.KBody1.lean ====
/-
  Region 1's body at an index, on the extended reals. The body loads a block of 5000 rows of its input array, the whole
  256 × 128 weight and the bias row, rounds the two matrices to bf16 (the identity on extended reals), multiplies them into
  a zero accumulator and adds the bias row to every row; where the layer has a relu it then takes the positive part. So
  entry (p, q) of what it stores is the sum over k of `x (p, k) * w (k, q)`, plus `b (0, q)`, under the layer's last step:
  the dense layer `Cert.Lin.lin` of the block.
-/
import proofs.«137440_j38895223833221_1_alg».proof.Proof.Gen.KernelIdeal.Skeleton
import proofs.«137440_j38895223833221_1_alg».proof.Proof.Lin
import Idealize.ShloMosaic.Lib.Pipeline.Value
import Idealize.ShloMosaic.Lib.ValueIdx
import Idealize.ShloMosaic.PureOps.Ideal.Laws

noncomputable section

open scoped BigOperators

namespace Cert.KernelIdeal.Body1

open Cert.KernelIdeal Cert.KernelIdeal.Gen Idealize.ShloMosaic Idealize.ShloMosaic.ValueIdx Cert.Lin

/-! The operand indices of the matrix product at output index `i` and contraction index `q`: (i 0, q) on the left,
    (q, i 1) on the right. -/

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The matrix product into a zero accumulator, at an entry: the sum over the inner axis. -/
theorem matmul_entry (x : FVec Ideal S5000x256 .bf16) (w : FVec Ideal S256x128 .bf16) (p : Fin 5000) (q : Fin 128) :
    FloatOps.matmul dot_S5000x256_S256x128_S5000x128_1_0_0_1_n_n none x w (constant (F := Ideal) S5000x128 .f32 0x00000000#32) (ix2 p q)
      = ∑ k : Fin 256, x (ix2 p k) * w (ix2 k q) := by
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The bias row broadcast over the rows, at an entry: the row's entry in that column. -/
theorem bias_entry (b : Vec Ideal S1x128 .f32) (p : Fin 5000) (q : Fin 128) :
    broadcastTo S5000x128 b broadcasts_S1x128_S5000x128 (ix2 p q) = b (ix2 0 q) := by
  exact broadcastTo_apply b broadcasts_S1x128_S5000x128 (ix2 p q) (ix2 0 q) (fun a => by
    match a with
    | ⟨0, _⟩ => rfl
    | ⟨1, _⟩ => rfl)

/-- What the body stores is the dense layer of its three loads. -/
theorem pay_eq (x0 : Vec Ideal S5000x256 .f32) (x1 : Vec Ideal S256x128 .f32) (x2 : Vec Ideal S1x128 .f32) :
    k1_pay1 (F := Ideal) x0 x1 x2 = lin true x0 x1 (fun j => x2 (ix2 0 j)) := by
  funext i
  obtain ⟨p, q, rfl⟩ : ∃ (p : Fin 5000) (q : Fin 128), i = ix2 p q := ⟨i 0, i 1, eq_ix2 i⟩
  rw [lin_apply, post_true]
  unfold k1_pay1
  simp only [shapeCast_self, matmul, maximumf_apply, addf_apply, broadcast_apply]
  rw [matmul_entry, bias_entry]
  show max _ (Ideal.ofBits .f32 0x00000000#32) = _
  rw [Ideal.ofBits_zero_f32]
  rfl

end Cert.KernelIdeal.Body1

end
-- ==== Proof.KRegion1.lean ====
/-
  Region 1 as one function of its arrays. The pallas_call walks the row blocks of its input array (window 0; 10 blocks of
  5000 rows), with the weight (window 1) and the bias row (window 2) whole at every point, and writes block `t` of its
  50000 × 128 result (window 3) at point `t`. The body leaves in the result's buffer the dense layer of the block it
  loaded (`Body1.pay_eq`), and a dense layer is computed row by row, so what point `t` writes back is block `t` of the
  dense layer of the WHOLE arrays. The blocks tile the result, so after the region the result array is that layer.
-/
import proofs.«137440_j38895223833221_1_alg».proof.Proof.Gen.KernelIdeal.Frame
import proofs.«137440_j38895223833221_1_alg».proof.Proof.KBody1
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Cert.Lin
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input's and the result's windows are at row block `t`, the weight and the bias
    row at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 10 := lt_of_lt_of_eq t.isLt N_1

/-- Row `p` of block `t` is row `5000 t + p` of the array. -/
def row (t : Fin cfg1.N) (p : Fin 5000) : Fin 50000 := ⟨t.val * 5000 + p.val, by have := t_lt t; have := p.isLt; omega⟩

/-- The result array after the region, as a function of the three arrays the region reads. -/
abbrev G (c : Dev nD) : S50000x128.Idx → EReal :=
  lin true (V c main_v46 : S50000x256.Idx → EReal) (V c main_arg6 : S256x128.Idx → EReal) (fun j => (V c main_v47 : S1x128.Idx → EReal) (ix2 0 j))

/-! The input blocks at point `t`, read where the arrays hold them. -/

theorem read0 (c : Dev nD) (t : Fin cfg1.N) (p : Fin 5000) (k : Fin 256) :
    (iblk1 V c 0 t : S5000x256.Idx → EReal) (ix2 p k) = (V c main_v46 : S50000x256.Idx → EReal) (ix2 (row t p) k) := by
  show (V c main_v46 : S50000x256.Idx → EReal) (((cfg1.win 0).blk t).view.emb (ix2 p k)) = _
  have e : ((cfg1.win 0).blk t).view.emb (ix2 p k) = ix2 (row t p) k := by
    obtain ⟨e0, e1, -⟩ := idx_facts t
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  rw [e]

theorem read1 (c : Dev nD) (t : Fin cfg1.N) (k : Fin 256) (q : Fin 128) :
    (iblk1 V c 1 t : S256x128.Idx → EReal) (ix2 k q) = (V c main_arg6 : S256x128.Idx → EReal) (ix2 k q) := by
  show (V c main_arg6 : S256x128.Idx → EReal) (((cfg1.win 1).blk t).view.emb (ix2 k q)) = _
  have e : ((cfg1.win 1).blk t).view.emb (ix2 k q) = ix2 k q := by
    obtain ⟨-, -, e0, e1, -⟩ := idx_facts t
    funext a; apply Fin.ext
    match a with
    | ⟨0, _⟩ => show win1_1.index t (0 : Fin 2) * 256 + 1 * k.val = k.val; omega
    | ⟨1, _⟩ => show win1_1.index t (1 : Fin 2) * 128 + 1 * q.val = q.val; omega
  rw [e]

theorem read2 (c : Dev nD) (t : Fin cfg1.N) (q : Fin 128) :
    (iblk1 V c 2 t : S1x128.Idx → EReal) (ix2 0 q) = (V c main_v47 : S1x128.Idx → EReal) (ix2 0 q) := by
  show (V c main_v47 : S1x128.Idx → EReal) (((cfg1.win 2).blk t).view.emb (ix2 0 q)) = _
  have e : ((cfg1.win 2).blk t).view.emb (ix2 (0 : Fin 1) q) = ix2 0 q := by
    obtain ⟨-, -, -, -, e0, e1, -⟩ := idx_facts t
    funext a; apply Fin.ext
    match a with
    | ⟨0, _⟩ => show win1_2.index t (0 : Fin 2) * 1 + 1 * 0 = 0; omega
    | ⟨1, _⟩ => show win1_2.index t (1 : Fin 2) * 128 + 1 * q.val = q.val; omega
  rw [e]

/-- Entry (p, q) of the result's block `t` sits at (5000 t + p, q) of the array. -/
theorem emb3 (t : Fin cfg1.N) (p : Fin 5000) (q : Fin 128) :
    ((cfg1.win 3).blk t).view.emb (ix2 p q) = ix2 (row t p) q := by
  obtain ⟨-, -, -, -, -, -, e0, e1⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point `t` writes back is block `t` of the dense layer of the whole arrays. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  rw [Body1.pay_eq]
  funext j
  obtain ⟨p, q, rfl⟩ : ∃ (p : Fin 5000) (q : Fin 128), j = ix2 p q := ⟨j 0, j 1, eq_ix2 j⟩
  show lin true (iblk1 V c 0 t : S5000x256.Idx → EReal) (iblk1 V c 1 t : S256x128.Idx → EReal) (fun j => (iblk1 V c 2 t : S1x128.Idx → EReal) (ix2 0 j)) (ix2 p q)
      = G V c (((cfg1.win 3).blk t).view.emb (ix2 p q))
  rw [emb3]
  unfold G
  rw [lin_apply, lin_apply, read2]
  refine congrArg (fun s => post true (s + _)) (Finset.sum_congr rfl fun k _ => ?_)
  rw [read0, read1]

/-- An index of the result array is in block `t` iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Row `r` of the result is in the block of point `r / 5000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  refine ⟨⟨(i 0).val / 5000, hN⟩, flush1_3 _, ?_⟩
  rw [mem_blk]
  obtain ⟨-, -, -, -, -, -, e0, e1⟩ := idx_facts ⟨(i 0).val / 5000, hN⟩
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; rw [e1]; omega

/-- After region 1 its result array holds the dense layer of the arrays it read. -/
theorem final (c : Dev nD) : (dat1 V c).arrAt 3 cfg1.N = G V c :=
  (dat1 V c).arrAt_eq_of_cover 3 (G V c) (fun t _ => flushed_eq V c t) cover

end Cert.KernelIdeal.Region1

end
-- ==== Proof.KBody2.lean ====
/-
  Region 2's body at an index, on the extended reals. The body loads a block of 4096 rows of its input array, the whole
  128 × 128 weight and the bias row, rounds the two matrices to bf16 (the identity on extended reals), multiplies them into
  a zero accumulator and adds the bias row to every row; where the layer has a relu it then takes the positive part. So
  entry (p, q) of what it stores is the sum over k of `x (p, k) * w (k, q)`, plus `b (0, q)`, under the layer's last step:
  the dense layer `Cert.Lin.lin` of the block.
-/
import proofs.«137440_j38895223833221_1_alg».proof.Proof.Gen.KernelIdeal.Skeleton
import proofs.«137440_j38895223833221_1_alg».proof.Proof.Lin
import Idealize.ShloMosaic.Lib.Pipeline.Value
import Idealize.ShloMosaic.Lib.ValueIdx
import Idealize.ShloMosaic.PureOps.Ideal.Laws

noncomputable section

open scoped BigOperators

namespace Cert.KernelIdeal.Body2

open Cert.KernelIdeal Cert.KernelIdeal.Gen Idealize.ShloMosaic Idealize.ShloMosaic.ValueIdx Cert.Lin

/-! The operand indices of the matrix product at output index `i` and contraction index `q`: (i 0, q) on the left,
    (q, i 1) on the right. -/

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The matrix product into a zero accumulator, at an entry: the sum over the inner axis. -/
theorem matmul_entry (x : FVec Ideal S4096x128 .bf16) (w : FVec Ideal S128x128 .bf16) (p : Fin 4096) (q : Fin 128) :
    FloatOps.matmul dot_S4096x128_S128x128_S4096x128_1_0_0_1_n_n none x w (constant (F := Ideal) S4096x128 .f32 0x00000000#32) (ix2 p q)
      = ∑ k : Fin 128, x (ix2 p k) * w (ix2 k q) := by
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast over the rows, at an entry: the row's entry in that column. -/
theorem bias_entry (b : Vec Ideal S1x128 .f32) (p : Fin 4096) (q : Fin 128) :
    broadcastTo S4096x128 b broadcasts_S1x128_S4096x128 (ix2 p q) = b (ix2 0 q) := by
  exact broadcastTo_apply b broadcasts_S1x128_S4096x128 (ix2 p q) (ix2 0 q) (fun a => by
    match a with
    | ⟨0, _⟩ => rfl
    | ⟨1, _⟩ => rfl)

/-- What the body stores is the dense layer of its three loads. -/
theorem pay_eq (x0 : Vec Ideal S4096x128 .f32) (x1 : Vec Ideal S128x128 .f32) (x2 : Vec Ideal S1x128 .f32) :
    k2_pay1 (F := Ideal) x0 x1 x2 = lin true x0 x1 (fun j => x2 (ix2 0 j)) := by
  funext i
  obtain ⟨p, q, rfl⟩ : ∃ (p : Fin 4096) (q : Fin 128), i = ix2 p q := ⟨i 0, i 1, eq_ix2 i⟩
  rw [lin_apply, post_true]
  unfold k2_pay1
  simp only [shapeCast_self, matmul, maximumf_apply, addf_apply, broadcast_apply]
  rw [matmul_entry, bias_entry]
  show max _ (Ideal.ofBits .f32 0x00000000#32) = _
  rw [Ideal.ofBits_zero_f32]
  rfl

end Cert.KernelIdeal.Body2

end
-- ==== Proof.KRegion2.lean ====
/-
  Region 2 as one function of its arrays. The pallas_call walks the row blocks of its input array (window 0; 1 blocks of
  4096 rows), with the weight (window 1) and the bias row (window 2) whole at every point, and writes block `t` of its
  4096 × 128 result (window 3) at point `t`. The body leaves in the result's buffer the dense layer of the block it
  loaded (`Body2.pay_eq`), and a dense layer is computed row by row, so what point `t` writes back is block `t` of the
  dense layer of the WHOLE arrays. The blocks tile the result, so after the region the result array is that layer.
-/
import proofs.«137440_j38895223833221_1_alg».proof.Proof.Gen.KernelIdeal.Frame
import proofs.«137440_j38895223833221_1_alg».proof.Proof.KBody2
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Cert.Lin
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input's and the result's windows are at row block `t`, the weight and the bias
    row at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 1 := lt_of_lt_of_eq t.isLt N_2

/-- Row `p` of block `t` is row `4096 t + p` of the array. -/
def row (t : Fin cfg2.N) (p : Fin 4096) : Fin 4096 := ⟨t.val * 4096 + p.val, by have := t_lt t; have := p.isLt; omega⟩

/-- The result array after the region, as a function of the three arrays the region reads. -/
abbrev G (c : Dev nD) : S4096x128.Idx → EReal :=
  lin true (V c main_v55 : S4096x128.Idx → EReal) (V c main_arg8 : S128x128.Idx → EReal) (fun j => (V c main_v56 : S1x128.Idx → EReal) (ix2 0 j))

/-! The input blocks at point `t`, read where the arrays hold them. -/

theorem read0 (c : Dev nD) (t : Fin cfg2.N) (p : Fin 4096) (k : Fin 128) :
    (iblk2 V c 0 t : S4096x128.Idx → EReal) (ix2 p k) = (V c main_v55 : S4096x128.Idx → EReal) (ix2 (row t p) k) := by
  show (V c main_v55 : S4096x128.Idx → EReal) (((cfg2.win 0).blk t).view.emb (ix2 p k)) = _
  have e : ((cfg2.win 0).blk t).view.emb (ix2 p k) = ix2 (row t p) k := by
    obtain ⟨e0, e1, -⟩ := idx_facts t
    funext a; apply Fin.ext
    match a with
    | ⟨0, _⟩ => show win2_0.index t (0 : Fin 2) * 4096 + 1 * p.val = t.val * 4096 + p.val; omega
    | ⟨1, _⟩ => show win2_0.index t (1 : Fin 2) * 128 + 1 * k.val = k.val; omega
  rw [e]

theorem read1 (c : Dev nD) (t : Fin cfg2.N) (k : Fin 128) (q : Fin 128) :
    (iblk2 V c 1 t : S128x128.Idx → EReal) (ix2 k q) = (V c main_arg8 : S128x128.Idx → EReal) (ix2 k q) := by
  show (V c main_arg8 : S128x128.Idx → EReal) (((cfg2.win 1).blk t).view.emb (ix2 k q)) = _
  have e : ((cfg2.win 1).blk t).view.emb (ix2 k q) = ix2 k q := by
    obtain ⟨-, -, e0, e1, -⟩ := idx_facts t
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [e]

theorem read2 (c : Dev nD) (t : Fin cfg2.N) (q : Fin 128) :
    (iblk2 V c 2 t : S1x128.Idx → EReal) (ix2 0 q) = (V c main_v56 : S1x128.Idx → EReal) (ix2 0 q) := by
  show (V c main_v56 : S1x128.Idx → EReal) (((cfg2.win 2).blk t).view.emb (ix2 0 q)) = _
  have e : ((cfg2.win 2).blk t).view.emb (ix2 (0 : Fin 1) q) = ix2 0 q := by
    obtain ⟨-, -, -, -, e0, e1, -⟩ := idx_facts t
    funext a; apply Fin.ext
    match a with
    | ⟨0, _⟩ => show win2_2.index t (0 : Fin 2) * 1 + 1 * 0 = 0; omega
    | ⟨1, _⟩ => show win2_2.index t (1 : Fin 2) * 128 + 1 * q.val = q.val; omega
  rw [e]

/-- Entry (p, q) of the result's block `t` sits at (4096 t + p, q) of the array. -/
theorem emb3 (t : Fin cfg2.N) (p : Fin 4096) (q : Fin 128) :
    ((cfg2.win 3).blk t).view.emb (ix2 p q) = ix2 (row t p) q := by
  obtain ⟨-, -, -, -, -, -, e0, e1⟩ := idx_facts t
  funext a; apply Fin.ext
  match a with
  | ⟨0, _⟩ => show win2_3.index t (0 : Fin 2) * 4096 + 1 * p.val = t.val * 4096 + p.val; omega
  | ⟨1, _⟩ => show win2_3.index t (1 : Fin 2) * 128 + 1 * q.val = q.val; omega

/-- What point `t` writes back is block `t` of the dense layer of the whole arrays. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S4096x128) hz, View.ld_unit_zero (S := S128x128) hz, View.ld_unit_zero (S := S1x128) hz]
  rw [Body2.pay_eq]
  funext j
  obtain ⟨p, q, rfl⟩ : ∃ (p : Fin 4096) (q : Fin 128), j = ix2 p q := ⟨j 0, j 1, eq_ix2 j⟩
  show lin true (iblk2 V c 0 t : S4096x128.Idx → EReal) (iblk2 V c 1 t : S128x128.Idx → EReal) (fun j => (iblk2 V c 2 t : S1x128.Idx → EReal) (ix2 0 j)) (ix2 p q)
      = G V c (((cfg2.win 3).blk t).view.emb (ix2 p q))
  rw [emb3]
  unfold G
  rw [lin_apply, lin_apply, read2]
  refine congrArg (fun s => post true (s + _)) (Finset.sum_congr rfl fun k _ => ?_)
  rw [read0, read1]

/-- An index of the result array is in block `t` iff each coordinate is in the block's range on its axis. -/
theorem mem_blk (t : Fin cfg2.N) (i : S4096x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v57).slice (win2_3.rect t)).set ↔ _
  rw [View.set_slice_whole, Rect.mem_set_unit]
  exact Iff.rfl

/-- Row `r` of the result is in the block of point `r / 4096`. -/
theorem cover (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  have hN : (i 0).val / 4096 < cfg2.N := lt_of_lt_of_eq (by omega : (i 0).val / 4096 < 1) N_2.symm
  refine ⟨⟨(i 0).val / 4096, hN⟩, flush2_3 _, ?_⟩
  rw [mem_blk]
  obtain ⟨-, -, -, -, -, -, e0, e1⟩ := idx_facts ⟨(i 0).val / 4096, hN⟩
  intro a
  match a with
  | ⟨0, _⟩ => show win2_3.index ⟨(i 0).val / 4096, hN⟩ (0 : Fin 2) * 4096 ≤ (i 0).val ∧ (i 0).val < win2_3.index ⟨(i 0).val / 4096, hN⟩ (0 : Fin 2) * 4096 + 4096; rw [e0]; show (i 0).val / 4096 * 4096 ≤ (i 0).val ∧ (i 0).val < (i 0).val / 4096 * 4096 + 4096; omega
  | ⟨1, _⟩ => show win2_3.index ⟨(i 0).val / 4096, hN⟩ (1 : Fin 2) * 128 ≤ (i 1).val ∧ (i 1).val < win2_3.index ⟨(i 0).val / 4096, hN⟩ (1 : Fin 2) * 128 + 128; rw [e1]; omega

/-- After region 2 its result array holds the dense layer of the arrays it read. -/
theorem final (c : Dev nD) : (dat2 V c).arrAt 3 cfg2.N = G V c :=
  (dat2 V c).arrAt_eq_of_cover 3 (G V c) (fun t _ => flushed_eq V c t) cover

end Cert.KernelIdeal.Region2

end
-- ==== Proof.KBody3.lean ====
/-
  Region 3's body at an index, on the extended reals. The body loads a block of 4096 rows of its input array, the whole
  128 × 128 weight and the bias row, rounds the two matrices to bf16 (the identity on extended reals), multiplies them into
  a zero accumulator and adds the bias row to every row; where the layer has a relu it then takes the positive part. So
  entry (p, q) of what it stores is the sum over k of `x (p, k) * w (k, q)`, plus `b (0, q)`, under the layer's last step:
  the dense layer `Cert.Lin.lin` of the block.
-/
import proofs.«137440_j38895223833221_1_alg».proof.Proof.Gen.KernelIdeal.Skeleton
import proofs.«137440_j38895223833221_1_alg».proof.Proof.Lin
import Idealize.ShloMosaic.Lib.Pipeline.Value
import Idealize.ShloMosaic.Lib.ValueIdx
import Idealize.ShloMosaic.PureOps.Ideal.Laws

noncomputable section

open scoped BigOperators

namespace Cert.KernelIdeal.Body3

open Cert.KernelIdeal Cert.KernelIdeal.Gen Idealize.ShloMosaic Idealize.ShloMosaic.ValueIdx Cert.Lin

/-! The operand indices of the matrix product at output index `i` and contraction index `q`: (i 0, q) on the left,
    (q, i 1) on the right. -/

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The matrix product into a zero accumulator, at an entry: the sum over the inner axis. -/
theorem matmul_entry (x : FVec Ideal S4096x128 .bf16) (w : FVec Ideal S128x128 .bf16) (p : Fin 4096) (q : Fin 128) :
    FloatOps.matmul dot_S4096x128_S128x128_S4096x128_1_0_0_1_n_n none x w (constant (F := Ideal) S4096x128 .f32 0x00000000#32) (ix2 p q)
      = ∑ k : Fin 128, x (ix2 p k) * w (ix2 k q) := by
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast over the rows, at an entry: the row's entry in that column. -/
theorem bias_entry (b : Vec Ideal S1x128 .f32) (p : Fin 4096) (q : Fin 128) :
    broadcastTo S4096x128 b broadcasts_S1x128_S4096x128 (ix2 p q) = b (ix2 0 q) := by
  exact broadcastTo_apply b broadcasts_S1x128_S4096x128 (ix2 p q) (ix2 0 q) (fun a => by
    match a with
    | ⟨0, _⟩ => rfl
    | ⟨1, _⟩ => rfl)

/-- What the body stores is the dense layer of its three loads. -/
theorem pay_eq (x0 : Vec Ideal S4096x128 .f32) (x1 : Vec Ideal S128x128 .f32) (x2 : Vec Ideal S1x128 .f32) :
    k3_pay1 (F := Ideal) x0 x1 x2 = lin false x0 x1 (fun j => x2 (ix2 0 j)) := by
  funext i
  obtain ⟨p, q, rfl⟩ : ∃ (p : Fin 4096) (q : Fin 128), i = ix2 p q := ⟨i 0, i 1, eq_ix2 i⟩
  rw [lin_apply, post_false]
  unfold k3_pay1
  simp only [shapeCast_self, matmul, addf_apply]
  rw [matmul_entry, bias_entry]
  rfl

end Cert.KernelIdeal.Body3

end
-- ==== Proof.KRegion3.lean ====
/-
  Region 3 as one function of its arrays. The pallas_call walks the row blocks of its input array (window 0; 1 blocks of
  4096 rows), with the weight (window 1) and the bias row (window 2) whole at every point, and writes block `t` of its
  4096 × 128 result (window 3) at point `t`. The body leaves in the result's buffer the dense layer of the block it
  loaded (`Body3.pay_eq`), and a dense layer is computed row by row, so what point `t` writes back is block `t` of the
  dense layer of the WHOLE arrays. The blocks tile the result, so after the region the result array is that layer.
-/
import proofs.«137440_j38895223833221_1_alg».proof.Proof.Gen.KernelIdeal.Frame
import proofs.«137440_j38895223833221_1_alg».proof.Proof.KBody3
import Idealize.ShloMosaic.Lib.Pipeline.Value

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Cert.Lin
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input's and the result's windows are at row block `t`, the weight and the bias
    row at their one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem t_lt (t : Fin cfg3.N) : t.val < 1 := lt_of_lt_of_eq t.isLt N_3

/-- Row `p` of block `t` is row `4096 t + p` of the array. -/
def row (t : Fin cfg3.N) (p : Fin 4096) : Fin 4096 := ⟨t.val * 4096 + p.val, by have := t_lt t; have := p.isLt; omega⟩

/-- The result array after the region, as a function of the three arrays the region reads. -/
abbrev G (c : Dev nD) : S4096x128.Idx → EReal :=
  lin false (V c main_v57 : S4096x128.Idx → EReal) (V c main_arg10 : S128x128.Idx → EReal) (fun j => (V c main_v58 : S1x128.Idx → EReal) (ix2 0 j))

/-! The input blocks at point `t`, read where the arrays hold them. -/

theorem read0 (c : Dev nD) (t : Fin cfg3.N) (p : Fin 4096) (k : Fin 128) :
    (iblk3 V c 0 t : S4096x128.Idx → EReal) (ix2 p k) = (V c main_v57 : S4096x128.Idx → EReal) (ix2 (row t p) k) := by
  show (V c main_v57 : S4096x128.Idx → EReal) (((cfg3.win 0).blk t).view.emb (ix2 p k)) = _
  have e : ((cfg3.win 0).blk t).view.emb (ix2 p k) = ix2 (row t p) k := by
    obtain ⟨e0, e1, -⟩ := idx_facts t
    funext a; apply Fin.ext
    match a with
    | ⟨0, _⟩ => show win3_0.index t (0 : Fin 2) * 4096 + 1 * p.val = t.val * 4096 + p.val; omega
    | ⟨1, _⟩ => show win3_0.index t (1 : Fin 2) * 128 + 1 * k.val = k.val; omega
  rw [e]

theorem read1 (c : Dev nD) (t : Fin cfg3.N) (k : Fin 128) (q : Fin 128) :
    (iblk3 V c 1 t : S128x128.Idx → EReal) (ix2 k q) = (V c main_arg10 : S128x128.Idx → EReal) (ix2 k q) := by
  show (V c main_arg10 : S128x128.Idx → EReal) (((cfg3.win 1).blk t).view.emb (ix2 k q)) = _
  have e : ((cfg3.win 1).blk t).view.emb (ix2 k q) = ix2 k q := by
    obtain ⟨-, -, e0, e1, -⟩ := idx_facts t
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  rw [e]

theorem read2 (c : Dev nD) (t : Fin cfg3.N) (q : Fin 128) :
    (iblk3 V c 2 t : S1x128.Idx → EReal) (ix2 0 q) = (V c main_v58 : S1x128.Idx → EReal) (ix2 0 q) := by
  show (V c main_v58 : S1x128.Idx → EReal) (((cfg3.win 2).blk t).view.emb (ix2 0 q)) = _
  have e : ((cfg3.win 2).blk t).view.emb (ix2 (0 : Fin 1) q) = ix2 0 q := by
    obtain ⟨-, -, -, -, e0, e1, -⟩ := idx_facts t
    funext a; apply Fin.ext
    match a with
    | ⟨0, _⟩ => show win3_2.index t (0 : Fin 2) * 1 + 1 * 0 = 0; omega
    | ⟨1, _⟩ => show win3_2.index t (1 : Fin 2) * 128 + 1 * q.val = q.val; omega
  rw [e]

/-- Entry (p, q) of the result's block `t` sits at (4096 t + p, q) of the array. -/
theorem emb3 (t : Fin cfg3.N) (p : Fin 4096) (q : Fin 128) :
    ((cfg3.win 3).blk t).view.emb (ix2 p q) = ix2 (row t p) q := by
  obtain ⟨-, -, -, -, -, -, e0, e1⟩ := idx_facts t
  funext a; apply Fin.ext
  match a with
  | ⟨0, _⟩ => show win3_3.index t (0 : Fin 2) * 4096 + 1 * p.val = t.val * 4096 + p.val; omega
  | ⟨1, _⟩ => show win3_3.index t (1 : Fin 2) * 128 + 1 * q.val = q.val; omega

/-- What point `t` writes back is block `t` of the dense layer of the whole arrays. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S4096x128) hz, View.ld_unit_zero (S := S128x128) hz, View.ld_unit_zero (S := S1x128) hz]
  rw [Body3.pay_eq]
  funext j
  obtain ⟨p, q, rfl⟩ : ∃ (p : Fin 4096) (q : Fin 128), j = ix2 p q := ⟨j 0, j 1, eq_ix2 j⟩
  show lin false (iblk3 V c 0 t : S4096x128.Idx → EReal) (iblk3 V c 1 t : S128x128.Idx → EReal) (fun j => (iblk3 V c 2 t : S1x128.Idx → EReal) (ix2 0 j)) (ix2 p q)
      = G V c (((cfg3.win 3).blk t).view.emb (ix2 p q))
  rw [emb3]
  unfold G
  rw [lin_apply, lin_apply, read2]
  refine congrArg (fun s => post false (s + _)) (Finset.sum_congr rfl fun k _ => ?_)
  rw [read0, read1]

/-- An index of the result array is in block `t` iff each coordinate is in the block's range on its axis. -/
theorem mem_blk (t : Fin cfg3.N) (i : S4096x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole main_v59).slice (win3_3.rect t)).set ↔ _
  rw [View.set_slice_whole, Rect.mem_set_unit]
  exact Iff.rfl

/-- Row `r` of the result is in the block of point `r / 4096`. -/
theorem cover (i : S4096x128.Idx) : ∃ t : Fin cfg3.N, (cfg3.win 3).flush t = true ∧ i ∈ ((cfg3.win 3).blk t).view.set := by
  have hi0 : (i 0).val < 4096 := (i 0).isLt
  have hi1 : (i 1).val < 128 := (i 1).isLt
  have hN : (i 0).val / 4096 < cfg3.N := lt_of_lt_of_eq (by omega : (i 0).val / 4096 < 1) N_3.symm
  refine ⟨⟨(i 0).val / 4096, hN⟩, flush3_3 _, ?_⟩
  rw [mem_blk]
  obtain ⟨-, -, -, -, -, -, e0, e1⟩ := idx_facts ⟨(i 0).val / 4096, hN⟩
  intro a
  match a with
  | ⟨0, _⟩ => show win3_3.index ⟨(i 0).val / 4096, hN⟩ (0 : Fin 2) * 4096 ≤ (i 0).val ∧ (i 0).val < win3_3.index ⟨(i 0).val / 4096, hN⟩ (0 : Fin 2) * 4096 + 4096; rw [e0]; show (i 0).val / 4096 * 4096 ≤ (i 0).val ∧ (i 0).val < (i 0).val / 4096 * 4096 + 4096; omega
  | ⟨1, _⟩ => show win3_3.index ⟨(i 0).val / 4096, hN⟩ (1 : Fin 2) * 128 ≤ (i 1).val ∧ (i 1).val < win3_3.index ⟨(i 0).val / 4096, hN⟩ (1 : Fin 2) * 128 + 128; rw [e1]; omega

/-- After region 3 its result array holds the dense layer of the arrays it read. -/
theorem final (c : Dev nD) : (dat3 V c).arrAt 3 cfg3.N = G V c :=
  (dat3 V c).arrAt_eq_of_cover 3 (G V c) (fun t _ => flushed_eq V c t) cover

end Cert.KernelIdeal.Region3

end
-- ==== Proof.KBody4.lean ====
/-
  Region 4's body at an index, on the extended reals. The body loads a block of 4096 rows of its input array, the whole
  128 × 64 weight and the bias row, rounds the two matrices to bf16 (the identity on extended reals), multiplies them into
  a zero accumulator and adds the bias row to every row; where the layer has a relu it then takes the positive part. So
  entry (p, q) of what it stores is the sum over k of `x (p, k) * w (k, q)`, plus `b (0, q)`, under the layer's last step:
  the dense layer `Cert.Lin.lin` of the block.
-/
import proofs.«137440_j38895223833221_1_alg».proof.Proof.Gen.KernelIdeal.Skeleton
import proofs.«137440_j38895223833221_1_alg».proof.Proof.Lin
import Idealize.ShloMosaic.Lib.Pipeline.Value
import Idealize.ShloMosaic.Lib.ValueIdx
import Idealize.ShloMosaic.PureOps.Ideal.Laws

noncomputable section

open scoped BigOperators

namespace Cert.KernelIdeal.Body4

open Cert.KernelIdeal Cert.KernelIdeal.Gen Idealize.ShloMosaic Idealize.ShloMosaic.ValueIdx Cert.Lin

/-! The operand indices of the matrix product at output index `i` and contraction index `q`: (i 0, q) on the left,
    (q, i 1) on the right. -/

theorem lhs_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The matrix product into a zero accumulator, at an entry: the sum over the inner axis. -/
theorem matmul_entry (x : FVec Ideal S4096x128 .bf16) (w : FVec Ideal S128x64 .bf16) (p : Fin 4096) (q : Fin 64) :
    FloatOps.matmul dot_S4096x128_S128x64_S4096x64_1_0_0_1_n_n none x w (constant (F := Ideal) S4096x64 .f32 0x00000000#32) (ix2 p q)
      = ∑ k : Fin 128, x (ix2 p k) * w (ix2 k q) := by
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 p q) ((contrEquiv1 dot_S4096x128_S128x64_S4096x64_1_0_0_1_n_n 128 rfl rfl).symm k) = ix2 p k := funext fun a => Fin.ext (by
    match a with
    | ⟨0, _⟩ => exact lhs_0 _ _
    | ⟨1, _⟩ => exact (lhs_1 _ _).trans hk)
  have er : dot_S4096x128_S128x64_S4096x64_1_0_0_1_n_n.rhsIdx (ix2 p q) ((contrEquiv1 dot_S4096x128_S128x64_S4096x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast over the rows, at an entry: the row's entry in that column. -/
theorem bias_entry (b : Vec Ideal S1x64 .f32) (p : Fin 4096) (q : Fin 64) :
    broadcastTo S4096x64 b broadcasts_S1x64_S4096x64 (ix2 p q) = b (ix2 0 q) := by
  exact broadcastTo_apply b broadcasts_S1x64_S4096x64 (ix2 p q) (ix2 0 q) (fun a => by
    match a with
    | ⟨0, _⟩ => rfl
    | ⟨1, _⟩ => rfl)

/-- What the body stores is the dense layer of its three loads. -/
theorem pay_eq (x0 : Vec Ideal S4096x128 .f32) (x1 : Vec Ideal S128x64 .f32) (x2 : Vec Ideal S1x64 .f32) :
    k4_pay1 (F := Ideal) x0 x1 x2 = lin true x0 x1 (fun j => x2 (ix2 0 j)) := by
  funext i
  obtain ⟨p, q, rfl⟩ : ∃ (p : Fin 4096) (q : Fin 64), i = ix2 p q := ⟨i 0, i 1, eq_ix2 i⟩
  rw [lin_apply, post_true]
  unfold k4_pay1
  simp only [shapeCast_self, matmul, maximumf_apply, addf_apply, broadcast_apply]
  rw [matmul_entry, bias_entry]
  show max _ (Ideal.ofBits .f32 0x00000000#32) = _
  rw [Ideal.ofBits_zero_f32]
  rfl

end Cert.KernelIdeal.Body4

end
-- ==== Proof.KRegion4.lean ====
/-
  Region 4 as one function of its arrays. The pallas_call walks the row blocks of its input array (window 0; 1 blocks of
  4096 rows), with the weight (window 1) and the bias row (window 2) whole at every point, and writes block `t` of its
  4096 × 64 result (window 3) at point `t`. The body leaves in the result's buffer the dense layer of the block it
  loaded (`Body4.pay_eq`), and a dense layer is computed row by row, so what point `t` writes back is block `t` of the
  dense layer of the WHOLE arrays. The blocks tile the result, so after the region the result array is that layer.
-/
import proofs.«137440_j38895223833221_1_alg».proof.Proof.Gen.KernelIdeal.Frame
import proofs.«137440_j38895223833221_1_alg».proof.Proof.KBody4
import Idealize.ShloMosaic.Lib.Pipeline.Value

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx Cert.Lin
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input's and the result's windows are at row block `t`, the weight and the bias
    row at their one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem t_lt (t : Fin cfg4.N) : t.val < 1 := lt_of_lt_of_eq t.isLt N_4

/-- Row `p` of block `t` is row `4096 t + p` of the array. -/
def row (t : Fin cfg4.N) (p : Fin 4096) : Fin 4096 := ⟨t.val * 4096 + p.val, by have := t_lt t; have := p.isLt; omega⟩

/-- The result array after the region, as a function of the three arrays the region reads. -/
abbrev G (c : Dev nD) : S4096x64.Idx → EReal :=
  lin true (V c main_v55 : S4096x128.Idx → EReal) (V c main_arg12 : S128x64.Idx → EReal) (fun j => (V c main_v60 : S1x64.Idx → EReal) (ix2 0 j))

/-! The input blocks at point `t`, read where the arrays hold them. -/

theorem read0 (c : Dev nD) (t : Fin cfg4.N) (p : Fin 4096) (k : Fin 128) :
    (iblk4 V c 0 t : S4096x128.Idx → EReal) (ix2 p k) = (V c main_v55 : S4096x128.Idx → EReal) (ix2 (row t p) k) := by
  show (V c main_v55 : S4096x128.Idx → EReal) (((cfg4.win 0).blk t).view.emb (ix2 p k)) = _
  have e : ((cfg4.win 0).blk t).view.emb (ix2 p k) = ix2 (row t p) k := by
    obtain ⟨e0, e1, -⟩ := idx_facts t
    funext a; apply Fin.ext
    match a with
    | ⟨0, _⟩ => show win4_0.index t (0 : Fin 2) * 4096 + 1 * p.val = t.val * 4096 + p.val; omega
    | ⟨1, _⟩ => show win4_0.index t (1 : Fin 2) * 128 + 1 * k.val = k.val; omega
  rw [e]

theorem read1 (c : Dev nD) (t : Fin cfg4.N) (k : Fin 128) (q : Fin 64) :
    (iblk4 V c 1 t : S128x64.Idx → EReal) (ix2 k q) = (V c main_arg12 : S128x64.Idx → EReal) (ix2 k q) := by
  show (V c main_arg12 : S128x64.Idx → EReal) (((cfg4.win 1).blk t).view.emb (ix2 k q)) = _
  have e : ((cfg4.win 1).blk t).view.emb (ix2 k q) = ix2 k q := by
    obtain ⟨-, -, e0, e1, -⟩ := idx_facts t
    funext a; apply Fin.ext
    match a with
    | ⟨0, _⟩ => show win4_1.index t (0 : Fin 2) * 128 + 1 * k.val = k.val; omega
    | ⟨1, _⟩ => show win4_1.index t (1 : Fin 2) * 64 + 1 * q.val = q.val; omega
  rw [e]

theorem read2 (c : Dev nD) (t : Fin cfg4.N) (q : Fin 64) :
    (iblk4 V c 2 t : S1x64.Idx → EReal) (ix2 0 q) = (V c main_v60 : S1x64.Idx → EReal) (ix2 0 q) := by
  show (V c main_v60 : S1x64.Idx → EReal) (((cfg4.win 2).blk t).view.emb (ix2 0 q)) = _
  have e : ((cfg4.win 2).blk t).view.emb (ix2 (0 : Fin 1) q) = ix2 0 q := by
    obtain ⟨-, -, -, -, e0, e1, -⟩ := idx_facts t
    funext a; apply Fin.ext
    match a with
    | ⟨0, _⟩ => show win4_2.index t (0 : Fin 2) * 1 + 1 * 0 = 0; omega
    | ⟨1, _⟩ => show win4_2.index t (1 : Fin 2) * 64 + 1 * q.val = q.val; omega
  rw [e]

/-- Entry (p, q) of the result's block `t` sits at (4096 t + p, q) of the array. -/
theorem emb3 (t : Fin cfg4.N) (p : Fin 4096) (q : Fin 64) :
    ((cfg4.win 3).blk t).view.emb (ix2 p q) = ix2 (row t p) q := by
  obtain ⟨-, -, -, -, -, -, e0, e1⟩ := idx_facts t
  funext a; apply Fin.ext
  match a with
  | ⟨0, _⟩ => show win4_3.index t (0 : Fin 2) * 4096 + 1 * p.val = t.val * 4096 + p.val; omega
  | ⟨1, _⟩ => show win4_3.index t (1 : Fin 2) * 64 + 1 * q.val = q.val; omega

/-- What point `t` writes back is block `t` of the dense layer of the whole arrays. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S4096x128) hz, View.ld_unit_zero (S := S128x64) hz, View.ld_unit_zero (S := S1x64) hz]
  rw [Body4.pay_eq]
  funext j
  obtain ⟨p, q, rfl⟩ : ∃ (p : Fin 4096) (q : Fin 64), j = ix2 p q := ⟨j 0, j 1, eq_ix2 j⟩
  show lin true (iblk4 V c 0 t : S4096x128.Idx → EReal) (iblk4 V c 1 t : S128x64.Idx → EReal) (fun j => (iblk4 V c 2 t : S1x64.Idx → EReal) (ix2 0 j)) (ix2 p q)
      = G V c (((cfg4.win 3).blk t).view.emb (ix2 p q))
  rw [emb3]
  unfold G
  rw [lin_apply, lin_apply, read2]
  refine congrArg (fun s => post true (s + _)) (Finset.sum_congr rfl fun k _ => ?_)
  rw [read0, read1]

/-- An index of the result array is in block `t` iff each coordinate is in the block's range on its axis. -/
theorem mem_blk (t : Fin cfg4.N) (i : S4096x64.Idx) :
    i ∈ ((cfg4.win 3).blk t).view.set ↔ ∀ a : Fin 2, win4_3.index t a * S4096x64.size a ≤ (i a).val ∧ (i a).val < win4_3.index t a * S4096x64.size a + S4096x64.size a := by
  show i ∈ ((View.whole main_v61).slice (win4_3.rect t)).set ↔ _
  rw [View.set_slice_whole, Rect.mem_set_unit]
  exact Iff.rfl

/-- Row `r` of the result is in the block of point `r / 4096`. -/
theorem cover (i : S4096x64.Idx) : ∃ t : Fin cfg4.N, (cfg4.win 3).flush t = true ∧ i ∈ ((cfg4.win 3).blk t).view.set := by
  have hi0 : (i 0).val < 4096 := (i 0).isLt
  have hi1 : (i 1).val < 64 := (i 1).isLt
  have hN : (i 0).val / 4096 < cfg4.N := lt_of_lt_of_eq (by omega : (i 0).val / 4096 < 1) N_4.symm
  refine ⟨⟨(i 0).val / 4096, hN⟩, flush4_3 _, ?_⟩
  rw [mem_blk]
  obtain ⟨-, -, -, -, -, -, e0, e1⟩ := idx_facts ⟨(i 0).val / 4096, hN⟩
  intro a
  match a with
  | ⟨0, _⟩ => show win4_3.index ⟨(i 0).val / 4096, hN⟩ (0 : Fin 2) * 4096 ≤ (i 0).val ∧ (i 0).val < win4_3.index ⟨(i 0).val / 4096, hN⟩ (0 : Fin 2) * 4096 + 4096; rw [e0]; show (i 0).val / 4096 * 4096 ≤ (i 0).val ∧ (i 0).val < (i 0).val / 4096 * 4096 + 4096; omega
  | ⟨1, _⟩ => show win4_3.index ⟨(i 0).val / 4096, hN⟩ (1 : Fin 2) * 64 ≤ (i 1).val ∧ (i 1).val < win4_3.index ⟨(i 0).val / 4096, hN⟩ (1 : Fin 2) * 64 + 64; rw [e1]; omega

/-- After region 4 its result array holds the dense layer of the arrays it read. -/
theorem final (c : Dev nD) : (dat4 V c).arrAt 3 cfg4.N = G V c :=
  (dat4 V c).arrAt_eq_of_cover 3 (G V c) (fun t _ => flushed_eq V c t) cover

end Cert.KernelIdeal.Region4

end
-- ==== Proof.KBody5.lean ====
/-
  Region 5's body at an index, on the extended reals. The body loads a block of 4096 rows of its input array, the whole
  64 × 64 weight and the bias row, rounds the two matrices to bf16 (the identity on extended reals), multiplies them into
  a zero accumulator and adds the bias row to every row; where the layer has a relu it then takes the positive part. So
  entry (p, q) of what it stores is the sum over k of `x (p, k) * w (k, q)`, plus `b (0, q)`, under the layer's last step:
  the dense layer `Cert.Lin.lin` of the block.
-/
import proofs.«137440_j38895223833221_1_alg».proof.Proof.Gen.KernelIdeal.Skeleton
import proofs.«137440_j38895223833221_1_alg».proof.Proof.Lin
import Idealize.ShloMosaic.Lib.Pipeline.Value
import Idealize.ShloMosaic.Lib.ValueIdx
import Idealize.ShloMosaic.PureOps.Ideal.Laws

noncomputable section

open scoped BigOperators

namespace Cert.KernelIdeal.Body5

open Cert.KernelIdeal Cert.KernelIdeal.Gen Idealize.ShloMosaic Idealize.ShloMosaic.ValueIdx Cert.Lin

/-! The operand indices of the matrix product at output index `i` and contraction index `q`: (i 0, q) on the left,
    (q, i 1) on the right. -/

theorem lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The matrix product into a zero accumulator, at an entry: the sum over the inner axis. -/
theorem matmul_entry (x : FVec Ideal S4096x64 .bf16) (w : FVec Ideal S64x64 .bf16) (p : Fin 4096) (q : Fin 64) :
    FloatOps.matmul dot_S4096x64_S64x64_S4096x64_1_0_0_1_n_n none x w (constant (F := Ideal) S4096x64 .f32 0x00000000#32) (ix2 p q)
      = ∑ k : Fin 64, x (ix2 p k) * w (ix2 k q) := by
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k := funext fun a => Fin.ext (by
    match a with
    | ⟨0, _⟩ => exact lhs_0 _ _
    | ⟨1, _⟩ => exact (lhs_1 _ _).trans hk)
  have er : dot_S4096x64_S64x64_S4096x64_1_0_0_1_n_n.rhsIdx (ix2 p q) ((contrEquiv1 dot_S4096x64_S64x64_S4096x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The bias row broadcast over the rows, at an entry: the row's entry in that column. -/
theorem bias_entry (b : Vec Ideal S1x64 .f32) (p : Fin 4096) (q : Fin 64) :
    broadcastTo S4096x64 b broadcasts_S1x64_S4096x64 (ix2 p q) = b (ix2 0 q) := by
  exact broadcastTo_apply b broadcasts_S1x64_S4096x64 (ix2 p q) (ix2 0 q) (fun a => by
    match a with
    | ⟨0, _⟩ => rfl
    | ⟨1, _⟩ => rfl)

/-- What the body stores is the dense layer of its three loads. -/
theorem pay_eq (x0 : Vec Ideal S4096x64 .f32) (x1 : Vec Ideal S64x64 .f32) (x2 : Vec Ideal S1x64 .f32) :
    k5_pay1 (F := Ideal) x0 x1 x2 = lin false x0 x1 (fun j => x2 (ix2 0 j)) := by
  funext i
  obtain ⟨p, q, rfl⟩ : ∃ (p : Fin 4096) (q : Fin 64), i = ix2 p q := ⟨i 0, i 1, eq_ix2 i⟩
  rw [lin_apply, post_false]
  unfold k5_pay1
  simp only [shapeCast_self, matmul, addf_apply]
  rw [matmul_entry, bias_entry]
  rfl

end Cert.KernelIdeal.Body5

end
-- ==== Proof.KRegion5.lean ====
/-
  Region 5 as one function of its arrays. The pallas_call walks the row blocks of its input array (window 0; 1 blocks of
  4096 rows), with the weight (window 1) and the bias row (window 2) whole at every point, and writes block `t` of its
  4096 × 64 result (window 3) at point `t`. The body leaves in the result's buffer the dense layer of the block it
  loaded (`Body5.pay_eq`), and a dense layer is computed row by row, so what point `t` writes back is block `t` of the
  dense layer of the WHOLE arrays. The blocks tile the result, so after the region the result array is that layer.
-/
import proofs.«137440_j38895223833221_1_alg».proof.Proof.Gen.KernelIdeal.Frame
import proofs.«137440_j38895223833221_1_alg».proof.Proof.KBody5
import Idealize.ShloMosaic.Lib.Pipeline.Value

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx Cert.Lin
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`: the input's and the result's windows are at row block `t`, the weight and the bias
    row at their one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem t_lt (t : Fin cfg5.N) : t.val < 1 := lt_of_lt_of_eq t.isLt N_5

/-- Row `p` of block `t` is row `4096 t + p` of the array. -/
def row (t : Fin cfg5.N) (p : Fin 4096) : Fin 4096 := ⟨t.val * 4096 + p.val, by have := t_lt t; have := p.isLt; omega⟩

/-- The result array after the region, as a function of the three arrays the region reads. -/
abbrev G (c : Dev nD) : S4096x64.Idx → EReal :=
  lin false (V c main_v61 : S4096x64.Idx → EReal) (V c main_arg14 : S64x64.Idx → EReal) (fun j => (V c main_v62 : S1x64.Idx → EReal) (ix2 0 j))

/-! The input blocks at point `t`, read where the arrays hold them. -/

theorem read0 (c : Dev nD) (t : Fin cfg5.N) (p : Fin 4096) (k : Fin 64) :
    (iblk5 V c 0 t : S4096x64.Idx → EReal) (ix2 p k) = (V c main_v61 : S4096x64.Idx → EReal) (ix2 (row t p) k) := by
  show (V c main_v61 : S4096x64.Idx → EReal) (((cfg5.win 0).blk t).view.emb (ix2 p k)) = _
  have e : ((cfg5.win 0).blk t).view.emb (ix2 p k) = ix2 (row t p) k := by
    obtain ⟨e0, e1, -⟩ := idx_facts t
    funext a; apply Fin.ext
    match a with
    | ⟨0, _⟩ => show win5_0.index t (0 : Fin 2) * 4096 + 1 * p.val = t.val * 4096 + p.val; omega
    | ⟨1, _⟩ => show win5_0.index t (1 : Fin 2) * 64 + 1 * k.val = k.val; omega
  rw [e]

theorem read1 (c : Dev nD) (t : Fin cfg5.N) (k : Fin 64) (q : Fin 64) :
    (iblk5 V c 1 t : S64x64.Idx → EReal) (ix2 k q) = (V c main_arg14 : S64x64.Idx → EReal) (ix2 k q) := by
  show (V c main_arg14 : S64x64.Idx → EReal) (((cfg5.win 1).blk t).view.emb (ix2 k q)) = _
  have e : ((cfg5.win 1).blk t).view.emb (ix2 k q) = ix2 k q := by
    obtain ⟨-, -, e0, e1, -⟩ := idx_facts t
    funext a; apply Fin.ext
    match a with
    | ⟨0, _⟩ => show win5_1.index t (0 : Fin 2) * 64 + 1 * k.val = k.val; omega
    | ⟨1, _⟩ => show win5_1.index t (1 : Fin 2) * 64 + 1 * q.val = q.val; omega
  rw [e]

theorem read2 (c : Dev nD) (t : Fin cfg5.N) (q : Fin 64) :
    (iblk5 V c 2 t : S1x64.Idx → EReal) (ix2 0 q) = (V c main_v62 : S1x64.Idx → EReal) (ix2 0 q) := by
  show (V c main_v62 : S1x64.Idx → EReal) (((cfg5.win 2).blk t).view.emb (ix2 0 q)) = _
  have e : ((cfg5.win 2).blk t).view.emb (ix2 (0 : Fin 1) q) = ix2 0 q := by
    obtain ⟨-, -, -, -, e0, e1, -⟩ := idx_facts t
    funext a; apply Fin.ext
    match a with
    | ⟨0, _⟩ => show win5_2.index t (0 : Fin 2) * 1 + 1 * 0 = 0; omega
    | ⟨1, _⟩ => show win5_2.index t (1 : Fin 2) * 64 + 1 * q.val = q.val; omega
  rw [e]

/-- Entry (p, q) of the result's block `t` sits at (4096 t + p, q) of the array. -/
theorem emb3 (t : Fin cfg5.N) (p : Fin 4096) (q : Fin 64) :
    ((cfg5.win 3).blk t).view.emb (ix2 p q) = ix2 (row t p) q := by
  obtain ⟨-, -, -, -, -, -, e0, e1⟩ := idx_facts t
  funext a; apply Fin.ext
  match a with
  | ⟨0, _⟩ => show win5_3.index t (0 : Fin 2) * 4096 + 1 * p.val = t.val * 4096 + p.val; omega
  | ⟨1, _⟩ => show win5_3.index t (1 : Fin 2) * 64 + 1 * q.val = q.val; omega

/-- What point `t` writes back is block `t` of the dense layer of the whole arrays. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S4096x64) hz, View.ld_unit_zero (S := S64x64) hz, View.ld_unit_zero (S := S1x64) hz]
  rw [Body5.pay_eq]
  funext j
  obtain ⟨p, q, rfl⟩ : ∃ (p : Fin 4096) (q : Fin 64), j = ix2 p q := ⟨j 0, j 1, eq_ix2 j⟩
  show lin false (iblk5 V c 0 t : S4096x64.Idx → EReal) (iblk5 V c 1 t : S64x64.Idx → EReal) (fun j => (iblk5 V c 2 t : S1x64.Idx → EReal) (ix2 0 j)) (ix2 p q)
      = G V c (((cfg5.win 3).blk t).view.emb (ix2 p q))
  rw [emb3]
  unfold G
  rw [lin_apply, lin_apply, read2]
  refine congrArg (fun s => post false (s + _)) (Finset.sum_congr rfl fun k _ => ?_)
  rw [read0, read1]

/-- An index of the result array is in block `t` iff each coordinate is in the block's range on its axis. -/
theorem mem_blk (t : Fin cfg5.N) (i : S4096x64.Idx) :
    i ∈ ((cfg5.win 3).blk t).view.set ↔ ∀ a : Fin 2, win5_3.index t a * S4096x64.size a ≤ (i a).val ∧ (i a).val < win5_3.index t a * S4096x64.size a + S4096x64.size a := by
  show i ∈ ((View.whole main_v63).slice (win5_3.rect t)).set ↔ _
  rw [View.set_slice_whole, Rect.mem_set_unit]
  exact Iff.rfl

/-- Row `r` of the result is in the block of point `r / 4096`. -/
theorem cover (i : S4096x64.Idx) : ∃ t : Fin cfg5.N, (cfg5.win 3).flush t = true ∧ i ∈ ((cfg5.win 3).blk t).view.set := by
  have hi0 : (i 0).val < 4096 := (i 0).isLt
  have hi1 : (i 1).val < 64 := (i 1).isLt
  have hN : (i 0).val / 4096 < cfg5.N := lt_of_lt_of_eq (by omega : (i 0).val / 4096 < 1) N_5.symm
  refine ⟨⟨(i 0).val / 4096, hN⟩, flush5_3 _, ?_⟩
  rw [mem_blk]
  obtain ⟨-, -, -, -, -, -, e0, e1⟩ := idx_facts ⟨(i 0).val / 4096, hN⟩
  intro a
  match a with
  | ⟨0, _⟩ => show win5_3.index ⟨(i 0).val / 4096, hN⟩ (0 : Fin 2) * 4096 ≤ (i 0).val ∧ (i 0).val < win5_3.index ⟨(i 0).val / 4096, hN⟩ (0 : Fin 2) * 4096 + 4096; rw [e0]; show (i 0).val / 4096 * 4096 ≤ (i 0).val ∧ (i 0).val < (i 0).val / 4096 * 4096 + 4096; omega
  | ⟨1, _⟩ => show win5_3.index ⟨(i 0).val / 4096, hN⟩ (1 : Fin 2) * 64 ≤ (i 1).val ∧ (i 1).val < win5_3.index ⟨(i 0).val / 4096, hN⟩ (1 : Fin 2) * 64 + 64; rw [e1]; omega

/-- After region 5 its result array holds the dense layer of the arrays it read. -/
theorem final (c : Dev nD) : (dat5 V c).arrAt 3 cfg5.N = G V c :=
  (dat5 V c).arrAt_eq_of_cover 3 (G V c) (fun t _ => flushed_eq V c t) cover

end Cert.KernelIdeal.Region5

end
-- ==== Proof.RefLin.lean ====
/-
  Each of the reference's six dense layers, read one entry at a time, is the layer function `lin` of its input stage, its
  weight array and its bias. The contraction's entry (r, j) is the sum over the inner axis of the products of the left
  operand at (r, k) and the right operand at (k, j); the bias, broadcast first to one row and then over all rows, reaches
  entry (r, j) as its entry j; the sum of the two is the layer before its last step; and where the layer has a relu, the
  maximum with the broadcast zero constant is the positive part.
-/
import proofs.«137440_j38895223833221_1_alg».proof.Proof.Gen.ReferenceIdeal.Read
import proofs.«137440_j38895223833221_1_alg».proof.Proof.Lin
import Idealize.ShloMosaic.Lib.ValueIdx
import Idealize.ShloMosaic.PureOps.Ideal.Laws

noncomputable section

open scoped BigOperators

namespace Cert.ReferenceIdeal.RefLin

open Cert.ReferenceIdeal Cert.ReferenceIdeal.Gen Cert.ReferenceIdeal.Read Idealize.ShloMosaic Idealize.ShloMosaic.ValueIdx Cert.Lin

/-- The first layer on the 50000 rows, 128 → 256 with relu: entry (r, j) is the positive part of the sum over the 128 inner
    positions of the products, plus entry j of the bias. -/
theorem stage_v33 (x0 : (⟨S50000x128, .f32⟩ : BufTy).Contents (Elt Ideal)) (x1 : (⟨S800000, .i32⟩ : BufTy).Contents (Elt Ideal))
    (x2 : (⟨S800000, .i32⟩ : BufTy).Contents (Elt Ideal)) (x4 : (⟨S128x256, .f32⟩ : BufTy).Contents (Elt Ideal))
    (x5 : (⟨S256, .f32⟩ : BufTy).Contents (Elt Ideal)) :
    val_main_v33 (F := Ideal) x0 x1 x2 x4 x5 =
      lin true (val_main_v28 (F := Ideal) x0 x1 x2) x4 (fun j => x5 (ix1 j)) := by
  funext i
  obtain ⟨r, j, rfl⟩ : ∃ (r : Fin 50000) (j : Fin 256), i = ix2 r j := ⟨i 0, i 1, eq_ix2 i⟩
  rw [lin_apply, post_true]
  rw [val_main_v33_apply, val_main_v32_apply, val_main_v29_apply, val_main_v31_apply, val_main_v30_apply,
    val_main_call2_v0_apply, val_main_call2_cst_apply]
  have hl : ∀ k : Fin 128, lidx_main_v29 (ix2 r j) k = ix2 r k := fun k =>
    funext fun a => Fin.ext (by match a with | ⟨0, _⟩ => rfl | ⟨1, _⟩ => rfl)
  have hr : ∀ k : Fin 128, ridx_main_v29 (ix2 r j) k = ix2 k j := fun k =>
    funext fun a => Fin.ext (by match a with | ⟨0, _⟩ => rfl | ⟨1, _⟩ => rfl)
  have hb : idx_main_v30 (idx_main_v31 (ix2 r j)) = ix1 j :=
    funext fun a => Fin.ext (by match a with | ⟨0, _⟩ => rfl)
  rw [hb]
  simp only [hl, hr]
  show max (_ + _) (Ideal.ofBits .f32 0x00000000#32) = _
  rw [Ideal.ofBits_zero_f32]

/-- The second layer on the 50000 rows, 256 → 128 with relu. -/
theorem stage_v67 (x0 : (⟨S50000x128, .f32⟩ : BufTy).Contents (Elt Ideal)) (x1 : (⟨S800000, .i32⟩ : BufTy).Contents (Elt Ideal))
    (x2 : (⟨S800000, .i32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) :
    val_main_v67 (F := Ideal) x0 x1 x2 x4 x5 x6 x7 =
      lin true (val_main_v62 (F := Ideal) x0 x1 x2 x4 x5) x6 (fun j => x7 (ix1 j)) := by
  funext i
  obtain ⟨r, j, rfl⟩ : ∃ (r : Fin 50000) (j : Fin 128), i = ix2 r j := ⟨i 0, i 1, eq_ix2 i⟩
  rw [lin_apply, post_true]
  rw [val_main_v67_apply, val_main_v66_apply, val_main_v63_apply, val_main_v65_apply, val_main_v64_apply,
    val_main_call5_v0_apply, val_main_call5_cst_apply]
  have hl : ∀ k : Fin 256, lidx_main_v63 (ix2 r j) k = ix2 r k := fun k =>
    funext fun a => Fin.ext (by match a with | ⟨0, _⟩ => rfl | ⟨1, _⟩ => rfl)
  have hr : ∀ k : Fin 256, ridx_main_v63 (ix2 r j) k = ix2 k j := fun k =>
    funext fun a => Fin.ext (by match a with | ⟨0, _⟩ => rfl | ⟨1, _⟩ => rfl)
  have hb : idx_main_v64 (idx_main_v65 (ix2 r j)) = ix1 j :=
    funext fun a => Fin.ext (by match a with | ⟨0, _⟩ => rfl)
  rw [hb]
  simp only [hl, hr]
  show max (_ + _) (Ideal.ofBits .f32 0x00000000#32) = _
  rw [Ideal.ofBits_zero_f32]

/-- A layer on the 4096 gathered rows, 128 → 128 with relu. -/
theorem stage_v79 (x0 : (⟨S50000x128, .f32⟩ : BufTy).Contents (Elt Ideal)) (x1 : (⟨S800000, .i32⟩ : BufTy).Contents (Elt Ideal))
    (x2 : (⟨S800000, .i32⟩ : BufTy).Contents (Elt Ideal)) (x3 : (⟨S4096, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    val_main_v79 (F := Ideal) x0 x1 x2 x3 x4 x5 x6 x7 x8 x9 =
      lin true (val_main_v74 (F := Ideal) x0 x1 x2 x3 x4 x5 x6 x7) x8 (fun j => x9 (ix1 j)) := by
  funext i
  obtain ⟨r, j, rfl⟩ : ∃ (r : Fin 4096) (j : Fin 128), i = ix2 r j := ⟨i 0, i 1, eq_ix2 i⟩
  rw [lin_apply, post_true]
  rw [val_main_v79_apply, val_main_v78_apply, val_main_v75_apply, val_main_v77_apply, val_main_v76_apply,
    val_main_call6_v0_apply, val_main_call6_cst_apply]
  have hl : ∀ k : Fin 128, lidx_main_v75 (ix2 r j) k = ix2 r k := fun k =>
    funext fun a => Fin.ext (by match a with | ⟨0, _⟩ => rfl | ⟨1, _⟩ => rfl)
  have hr : ∀ k : Fin 128, ridx_main_v75 (ix2 r j) k = ix2 k j := fun k =>
    funext fun a => Fin.ext (by match a with | ⟨0, _⟩ => rfl | ⟨1, _⟩ => rfl)
  have hb : idx_main_v76 (idx_main_v77 (ix2 r j)) = ix1 j :=
    funext fun a => Fin.ext (by match a with | ⟨0, _⟩ => rfl)
  rw [hb]
  simp only [hl, hr]
  show max (_ + _) (Ideal.ofBits .f32 0x00000000#32) = _
  rw [Ideal.ofBits_zero_f32]

/-- The layer after it, 128 → 128 with no relu: entry (r, j) is the sum of the products plus entry j of the bias. -/
theorem stage_v83 (x0 : (⟨S50000x128, .f32⟩ : BufTy).Contents (Elt Ideal)) (x1 : (⟨S800000, .i32⟩ : BufTy).Contents (Elt Ideal))
    (x2 : (⟨S800000, .i32⟩ : BufTy).Contents (Elt Ideal)) (x3 : (⟨S4096, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v83 (F := Ideal) x0 x1 x2 x3 x4 x5 x6 x7 x8 x9 x10 x11 =
      lin false (val_main_v79 (F := Ideal) x0 x1 x2 x3 x4 x5 x6 x7 x8 x9) x10 (fun j => x11 (ix1 j)) := by
  funext i
  obtain ⟨r, j, rfl⟩ : ∃ (r : Fin 4096) (j : Fin 128), i = ix2 r j := ⟨i 0, i 1, eq_ix2 i⟩
  rw [lin_apply, post_false]
  rw [val_main_v83_apply, val_main_v80_apply, val_main_v82_apply, val_main_v81_apply]
  have hl : ∀ k : Fin 128, lidx_main_v80 (ix2 r j) k = ix2 r k := fun k =>
    funext fun a => Fin.ext (by match a with | ⟨0, _⟩ => rfl | ⟨1, _⟩ => rfl)
  have hr : ∀ k : Fin 128, ridx_main_v80 (ix2 r j) k = ix2 k j := fun k =>
    funext fun a => Fin.ext (by match a with | ⟨0, _⟩ => rfl | ⟨1, _⟩ => rfl)
  have hb : idx_main_v81 (idx_main_v82 (ix2 r j)) = ix1 j :=
    funext fun a => Fin.ext (by match a with | ⟨0, _⟩ => rfl)
  rw [hb]
  simp only [hl, hr]
  rfl

/-- Another layer on the same 4096 gathered rows, 128 → 64 with relu. -/
theorem stage_v88 (x0 : (⟨S50000x128, .f32⟩ : BufTy).Contents (Elt Ideal)) (x1 : (⟨S800000, .i32⟩ : BufTy).Contents (Elt Ideal))
    (x2 : (⟨S800000, .i32⟩ : BufTy).Contents (Elt Ideal)) (x3 : (⟨S4096, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (x12 : (⟨S128x64, .f32⟩ : BufTy).Contents (Elt Ideal)) (x13 : (⟨S64, .f32⟩ : BufTy).Contents (Elt Ideal)) :
    val_main_v88 (F := Ideal) x0 x1 x2 x3 x4 x5 x6 x7 x12 x13 =
      lin true (val_main_v74 (F := Ideal) x0 x1 x2 x3 x4 x5 x6 x7) x12 (fun j => x13 (ix1 j)) := by
  funext i
  obtain ⟨r, j, rfl⟩ : ∃ (r : Fin 4096) (j : Fin 64), i = ix2 r j := ⟨i 0, i 1, eq_ix2 i⟩
  rw [lin_apply, post_true]
  rw [val_main_v88_apply, val_main_v87_apply, val_main_v84_apply, val_main_v86_apply, val_main_v85_apply,
    val_main_call7_v0_apply, val_main_call7_cst_apply]
  have hl : ∀ k : Fin 128, lidx_main_v84 (ix2 r j) k = ix2 r k := fun k =>
    funext fun a => Fin.ext (by match a with | ⟨0, _⟩ => rfl | ⟨1, _⟩ => rfl)
  have hr : ∀ k : Fin 128, ridx_main_v84 (ix2 r j) k = ix2 k j := fun k =>
    funext fun a => Fin.ext (by match a with | ⟨0, _⟩ => rfl | ⟨1, _⟩ => rfl)
  have hb : idx_main_v85 (idx_main_v86 (ix2 r j)) = ix1 j :=
    funext fun a => Fin.ext (by match a with | ⟨0, _⟩ => rfl)
  rw [hb]
  simp only [hl, hr]
  show max (_ + _) (Ideal.ofBits .f32 0x00000000#32) = _
  rw [Ideal.ofBits_zero_f32]

/-- The layer after that one, 64 → 64 with no relu. -/
theorem stage_v92 (x0 : (⟨S50000x128, .f32⟩ : BufTy).Contents (Elt Ideal)) (x1 : (⟨S800000, .i32⟩ : BufTy).Contents (Elt Ideal))
    (x2 : (⟨S800000, .i32⟩ : BufTy).Contents (Elt Ideal)) (x3 : (⟨S4096, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (x12 : (⟨S128x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal)) :
    val_main_v92 (F := Ideal) x0 x1 x2 x3 x4 x5 x6 x7 x12 x13 x14 x15 =
      lin false (val_main_v88 (F := Ideal) x0 x1 x2 x3 x4 x5 x6 x7 x12 x13) x14 (fun j => x15 (ix1 j)) := by
  funext i
  obtain ⟨r, j, rfl⟩ : ∃ (r : Fin 4096) (j : Fin 64), i = ix2 r j := ⟨i 0, i 1, eq_ix2 i⟩
  rw [lin_apply, post_false]
  rw [val_main_v92_apply, val_main_v89_apply, val_main_v91_apply, val_main_v90_apply]
  have hl : ∀ k : Fin 64, lidx_main_v89 (ix2 r j) k = ix2 r k := fun k =>
    funext fun a => Fin.ext (by match a with | ⟨0, _⟩ => rfl | ⟨1, _⟩ => rfl)
  have hr : ∀ k : Fin 64, ridx_main_v89 (ix2 r j) k = ix2 k j := fun k =>
    funext fun a => Fin.ext (by match a with | ⟨0, _⟩ => rfl | ⟨1, _⟩ => rfl)
  have hb : idx_main_v90 (idx_main_v91 (ix2 r j)) = ix1 j :=
    funext fun a => Fin.ext (by match a with | ⟨0, _⟩ => rfl)
  rw [hb]
  simp only [hl, hr]
  rfl

end Cert.ReferenceIdeal.RefLin

end
-- ==== Proof.KChain.lean ====
/-
  The kernel program's two results as functions of its sixteen arguments, read off the contents of its buffers at each
  boundary between a stretch of host operations and a pallas_call.

  The host operations of the kernel program are, operation for operation, the reference's own (the degree counts by
  scatter-add, the clipped inverse square roots, the scaled gather and scatter-add of each graph layer, the row gather at
  the trigger nodes): the reference's stages `val_main_vN` (one per operation of the reference, each a function of the
  arguments) name them, and the kernel's buffer holds the same term. The six pallas_calls are the six dense layers: the
  region's result array is `Cert.Lin.lin` of its three arrays (`RegionK.final`), which is what the reference's
  contraction, bias and relu compute (`RefLin.stage_vN`). The reference recomputes the two degree norms for the second
  graph layer where the kernel program reuses the first layer's: the same term of the same arguments. The kernel passes
  each bias as a 1 × N row made by a reshape; row 0 of that row is the bias vector.
  So, walking from the launch to the return: each region is entered at the reference's stage for that layer's input, and
  left at the reference's stage for that layer's output; the two arrays returned are the reference's two results.
-/
import proofs.«137440_j38895223833221_1_alg».proof.Proof.Gen.KernelIdeal.Frame
import proofs.«137440_j38895223833221_1_alg».proof.Proof.Gen.ReferenceIdeal.Read
import proofs.«137440_j38895223833221_1_alg».proof.Proof.KRegion0
import proofs.«137440_j38895223833221_1_alg».proof.Proof.KRegion1
import proofs.«137440_j38895223833221_1_alg».proof.Proof.KRegion2
import proofs.«137440_j38895223833221_1_alg».proof.Proof.KRegion3
import proofs.«137440_j38895223833221_1_alg».proof.Proof.KRegion4
import proofs.«137440_j38895223833221_1_alg».proof.Proof.KRegion5
import proofs.«137440_j38895223833221_1_alg».proof.Proof.RefLin
import proofs.«137440_j38895223833221_1_alg».proof.Proof.Lin
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Lin Cert.ReferenceIdeal.Read Cert.ReferenceIdeal.RefLin

variable (m : (ℓ : Loc nD τ sig) → Buf (Elt Ideal) ℓ) (ρ : Dev nD → PrngReg) (c : Dev nD)

/-! The sixteen arguments as launched. -/
abbrev A0 : (⟨S50000x128, .f32⟩ : BufTy).Contents (Elt Ideal) := m ((c.tc : Thread nD τ).loc main_arg0)
abbrev A1 : (⟨S800000, .i32⟩ : BufTy).Contents (Elt Ideal) := m ((c.tc : Thread nD τ).loc main_arg1)
abbrev A2 : (⟨S800000, .i32⟩ : BufTy).Contents (Elt Ideal) := m ((c.tc : Thread nD τ).loc main_arg2)
abbrev A3 : (⟨S4096, .i32⟩ : BufTy).Contents (Elt Ideal) := m ((c.tc : Thread nD τ).loc main_arg3)
abbrev A4 : (⟨S128x256, .f32⟩ : BufTy).Contents (Elt Ideal) := m ((c.tc : Thread nD τ).loc main_arg4)
abbrev A5 : (⟨S256, .f32⟩ : BufTy).Contents (Elt Ideal) := m ((c.tc : Thread nD τ).loc main_arg5)
abbrev A6 : (⟨S256x128, .f32⟩ : BufTy).Contents (Elt Ideal) := m ((c.tc : Thread nD τ).loc main_arg6)
abbrev A7 : (⟨S128, .f32⟩ : BufTy).Contents (Elt Ideal) := m ((c.tc : Thread nD τ).loc main_arg7)
abbrev A8 : (⟨S128x128, .f32⟩ : BufTy).Contents (Elt Ideal) := m ((c.tc : Thread nD τ).loc main_arg8)
abbrev A9 : (⟨S128, .f32⟩ : BufTy).Contents (Elt Ideal) := m ((c.tc : Thread nD τ).loc main_arg9)
abbrev A10 : (⟨S128x128, .f32⟩ : BufTy).Contents (Elt Ideal) := m ((c.tc : Thread nD τ).loc main_arg10)
abbrev A11 : (⟨S128, .f32⟩ : BufTy).Contents (Elt Ideal) := m ((c.tc : Thread nD τ).loc main_arg11)
abbrev A12 : (⟨S128x64, .f32⟩ : BufTy).Contents (Elt Ideal) := m ((c.tc : Thread nD τ).loc main_arg12)
abbrev A13 : (⟨S64, .f32⟩ : BufTy).Contents (Elt Ideal) := m ((c.tc : Thread nD τ).loc main_arg13)
abbrev A14 : (⟨S64x64, .f32⟩ : BufTy).Contents (Elt Ideal) := m ((c.tc : Thread nD τ).loc main_arg14)
abbrev A15 : (⟨S64, .f32⟩ : BufTy).Contents (Elt Ideal) := m ((c.tc : Thread nD τ).loc main_arg15)

/-- Row 0 of the 1 × N row a reshape makes of a vector of length N is the vector. -/
theorem bias_row {N : Nat} (a : (⟨1, ![N]⟩ : Shape).Idx → EReal) (h : (⟨1, ![N]⟩ : Shape).ShapeCasts ⟨2, ![1, N]⟩) :
    (fun j : Fin N => shapeCast (⟨2, ![1, N]⟩ : Shape) a h (ix2 0 j)) = fun j => a (ix1 j) := by
  funext j
  refine (shapeCast_addUnit_apply ![N] a h (ix2 0 j)).trans (congrArg a ?_)
  funext d
  match d with
  | ⟨0, _⟩ => rfl

/-- A buffer that no earlier region has as one of its arrays, walked back through the host stretches and the regions before
    it to the contents at the launch: each region leaves it as entered, each host operation that does not write it too. -/
macro "walk_back" : tactic => `(tactic| (
  repeat (first
    | (rw [W16_of_ne]; rotate_left; decide) | (rw [W14_of_ne]; rotate_left; decide) | (rw [W12_of_ne]; rotate_left; decide)
    | (rw [W10_of_ne]; rotate_left; decide) | (rw [W8_of_ne]; rotate_left; decide) | (rw [W6_of_ne]; rotate_left; decide)
    | (fail_if_no_progress dsimp only [W15, W13, W11, W9, W7, W5, W4, W3, W2, W1]; after_results_simp))))

/-! The two clips of the degree counts are printed as calls of a module-local function, whose operations read and write their
    buffers through a change of type that is the identity here (each buffer's type is the one its reference is used at). -/
theorem toBuf_main_cst_2 (v : (⟨S_, .f32⟩ : BufTy).Contents (Elt Ideal)) :
    (TRef.of (T := ⟨S_, .f32⟩) main_cst_2 : TRef sig ⟨S_, .f32⟩).toBuf (Val := Elt Ideal) v = v := rfl
theorem ofBuf_main_cst_2 (v : (⟨S_, .f32⟩ : BufTy).Contents (Elt Ideal)) :
    (TRef.of (T := ⟨S_, .f32⟩) main_cst_2 : TRef sig ⟨S_, .f32⟩).ofBuf (Val := Elt Ideal) v = v := rfl
theorem toBuf_main_call0_v0 (v : (⟨S_, .f32⟩ : BufTy).Contents (Elt Ideal)) :
    (TRef.of (T := ⟨S_, .f32⟩) main_call0_v0 : TRef sig ⟨S_, .f32⟩).toBuf (Val := Elt Ideal) v = v := rfl
theorem ofBuf_main_call0_v0 (v : (⟨S_, .f32⟩ : BufTy).Contents (Elt Ideal)) :
    (TRef.of (T := ⟨S_, .f32⟩) main_call0_v0 : TRef sig ⟨S_, .f32⟩).ofBuf (Val := Elt Ideal) v = v := rfl
theorem toBuf_main_call0_v1 (v : (⟨S50000, .f32⟩ : BufTy).Contents (Elt Ideal)) :
    (TRef.of (T := ⟨S50000, .f32⟩) main_call0_v1 : TRef sig ⟨S50000, .f32⟩).toBuf (Val := Elt Ideal) v = v := rfl
theorem ofBuf_main_call0_v1 (v : (⟨S50000, .f32⟩ : BufTy).Contents (Elt Ideal)) :
    (TRef.of (T := ⟨S50000, .f32⟩) main_call0_v1 : TRef sig ⟨S50000, .f32⟩).ofBuf (Val := Elt Ideal) v = v := rfl
theorem toBuf_main_v3 (v : (⟨S50000, .f32⟩ : BufTy).Contents (Elt Ideal)) :
    (TRef.of (T := ⟨S50000, .f32⟩) main_v3 : TRef sig ⟨S50000, .f32⟩).toBuf (Val := Elt Ideal) v = v := rfl
theorem ofBuf_main_v3 (v : (⟨S50000, .f32⟩ : BufTy).Contents (Elt Ideal)) :
    (TRef.of (T := ⟨S50000, .f32⟩) main_v3 : TRef sig ⟨S50000, .f32⟩).ofBuf (Val := Elt Ideal) v = v := rfl
theorem toBuf_main_v7 (v : (⟨S50000, .f32⟩ : BufTy).Contents (Elt Ideal)) :
    (TRef.of (T := ⟨S50000, .f32⟩) main_v7 : TRef sig ⟨S50000, .f32⟩).toBuf (Val := Elt Ideal) v = v := rfl
theorem ofBuf_main_v7 (v : (⟨S50000, .f32⟩ : BufTy).Contents (Elt Ideal)) :
    (TRef.of (T := ⟨S50000, .f32⟩) main_v7 : TRef sig ⟨S50000, .f32⟩).ofBuf (Val := Elt Ideal) v = v := rfl
theorem toBuf_main_cst_4 (v : (⟨S_, .f32⟩ : BufTy).Contents (Elt Ideal)) :
    (TRef.of (T := ⟨S_, .f32⟩) main_cst_4 : TRef sig ⟨S_, .f32⟩).toBuf (Val := Elt Ideal) v = v := rfl
theorem ofBuf_main_cst_4 (v : (⟨S_, .f32⟩ : BufTy).Contents (Elt Ideal)) :
    (TRef.of (T := ⟨S_, .f32⟩) main_cst_4 : TRef sig ⟨S_, .f32⟩).ofBuf (Val := Elt Ideal) v = v := rfl
theorem toBuf_main_call1_v0 (v : (⟨S_, .f32⟩ : BufTy).Contents (Elt Ideal)) :
    (TRef.of (T := ⟨S_, .f32⟩) main_call1_v0 : TRef sig ⟨S_, .f32⟩).toBuf (Val := Elt Ideal) v = v := rfl
theorem ofBuf_main_call1_v0 (v : (⟨S_, .f32⟩ : BufTy).Contents (Elt Ideal)) :
    (TRef.of (T := ⟨S_, .f32⟩) main_call1_v0 : TRef sig ⟨S_, .f32⟩).ofBuf (Val := Elt Ideal) v = v := rfl
theorem toBuf_main_call1_v1 (v : (⟨S50000, .f32⟩ : BufTy).Contents (Elt Ideal)) :
    (TRef.of (T := ⟨S50000, .f32⟩) main_call1_v1 : TRef sig ⟨S50000, .f32⟩).toBuf (Val := Elt Ideal) v = v := rfl
theorem ofBuf_main_call1_v1 (v : (⟨S50000, .f32⟩ : BufTy).Contents (Elt Ideal)) :
    (TRef.of (T := ⟨S50000, .f32⟩) main_call1_v1 : TRef sig ⟨S50000, .f32⟩).ofBuf (Val := Elt Ideal) v = v := rfl
theorem toBuf_main_v6 (v : (⟨S50000, .f32⟩ : BufTy).Contents (Elt Ideal)) :
    (TRef.of (T := ⟨S50000, .f32⟩) main_v6 : TRef sig ⟨S50000, .f32⟩).toBuf (Val := Elt Ideal) v = v := rfl
theorem ofBuf_main_v6 (v : (⟨S50000, .f32⟩ : BufTy).Contents (Elt Ideal)) :
    (TRef.of (T := ⟨S50000, .f32⟩) main_v6 : TRef sig ⟨S50000, .f32⟩).ofBuf (Val := Elt Ideal) v = v := rfl
theorem toBuf_main_v10 (v : (⟨S50000, .f32⟩ : BufTy).Contents (Elt Ideal)) :
    (TRef.of (T := ⟨S50000, .f32⟩) main_v10 : TRef sig ⟨S50000, .f32⟩).toBuf (Val := Elt Ideal) v = v := rfl
theorem ofBuf_main_v10 (v : (⟨S50000, .f32⟩ : BufTy).Contents (Elt Ideal)) :
    (TRef.of (T := ⟨S50000, .f32⟩) main_v10 : TRef sig ⟨S50000, .f32⟩).ofBuf (Val := Elt Ideal) v = v := rfl

/-- Removes those identity changes of type wherever they stand. -/
macro "strip_casts" : tactic => `(tactic| (
  repeat (first
    | rw [toBuf_main_cst_2] | rw [ofBuf_main_cst_2]
    | rw [toBuf_main_call0_v0] | rw [ofBuf_main_call0_v0]
    | rw [toBuf_main_call0_v1] | rw [ofBuf_main_call0_v1]
    | rw [toBuf_main_v3] | rw [ofBuf_main_v3]
    | rw [toBuf_main_v7] | rw [ofBuf_main_v7]
    | rw [toBuf_main_cst_4] | rw [ofBuf_main_cst_4]
    | rw [toBuf_main_call1_v0] | rw [ofBuf_main_call1_v0]
    | rw [toBuf_main_call1_v1] | rw [ofBuf_main_call1_v1]
    | rw [toBuf_main_v6] | rw [ofBuf_main_v6]
    | rw [toBuf_main_v10] | rw [ofBuf_main_v10])))

/-! ## Region 0: the first graph layer's dense layer -/

set_option maxHeartbeats 4000000 in
/-- Region 0 is entered with its input array at the first layer's aggregate (the reference's stage `main_v28`). -/
theorem entry0_x : W5 m ρ c (Proc.devRef .tc main_v28) = val_main_v28 (F := Ideal) (A0 m c) (A1 m c) (A2 m c) := by
  walk_back
  strip_casts
  rfl
set_option maxHeartbeats 4000000 in
theorem entry0_w : W5 m ρ c (Proc.devRef .tc main_arg4) = A4 m c := by
  walk_back
set_option maxHeartbeats 4000000 in
theorem entry0_b : (fun j : Fin 256 => (W5 m ρ c (Proc.devRef .tc main_v29) : S1x256.Idx → EReal) (ix2 0 j)) = fun j => A5 m c (ix1 j) := by
  have h : W5 m ρ c (Proc.devRef .tc main_v29) = shapeCast S1x256 (A5 m c) shapeCasts_S256_S1x256 := by
    walk_back
    rfl
  rw [h]
  exact bias_row _ _
/-- Region 0 leaves its result array at the reference's first hidden layer (its stage `main_v33`). -/
theorem out0 : W6 m ρ c (Proc.devRef .tc main_v30) = val_main_v33 (F := Ideal) (A0 m c) (A1 m c) (A2 m c) (A4 m c) (A5 m c) := by
  refine (W6_arr m ρ c 3).trans ((Region0.final (V5 m ρ) c).trans ?_)
  show lin true (W5 m ρ c (Proc.devRef .tc main_v28)) (W5 m ρ c (Proc.devRef .tc main_arg4)) (fun j => W5 m ρ c (Proc.devRef .tc main_v29) (ix2 0 j)) = _
  rw [entry0_x m ρ c, entry0_w m ρ c, entry0_b m ρ c, stage_v33]

/-! ## Region 1: the second graph layer's dense layer -/

set_option maxHeartbeats 4000000 in
/-- Region 1 is entered with its input array at the second layer's aggregate (the reference's stage `main_v62`): the same
    gather and scatter-add of the first hidden layer, scaled by the same two degree norms. -/
theorem entry1_x : W7 m ρ c (Proc.devRef .tc main_v46) = val_main_v62 (F := Ideal) (A0 m c) (A1 m c) (A2 m c) (A4 m c) (A5 m c) := by
  dsimp only [W7]
  after_results_simp
  rw [out0 m ρ c]
  walk_back
  strip_casts
  rfl
set_option maxHeartbeats 4000000 in
theorem entry1_w : W7 m ρ c (Proc.devRef .tc main_arg6) = A6 m c := by
  walk_back
set_option maxHeartbeats 4000000 in
theorem entry1_b : (fun j : Fin 128 => (W7 m ρ c (Proc.devRef .tc main_v47) : S1x128.Idx → EReal) (ix2 0 j)) = fun j => A7 m c (ix1 j) := by
  have h : W7 m ρ c (Proc.devRef .tc main_v47) = shapeCast S1x128 (A7 m c) shapeCasts_S128_S1x128 := by
    walk_back
    rfl
  rw [h]
  exact bias_row _ _
/-- Region 1 leaves its result array at the reference's second hidden layer (its stage `main_v67`). -/
theorem out1 : W8 m ρ c (Proc.devRef .tc main_v48) = val_main_v67 (F := Ideal) (A0 m c) (A1 m c) (A2 m c) (A4 m c) (A5 m c) (A6 m c) (A7 m c) := by
  refine (W8_arr m ρ c 3).trans ((Region1.final (V7 m ρ) c).trans ?_)
  show lin true (W7 m ρ c (Proc.devRef .tc main_v46)) (W7 m ρ c (Proc.devRef .tc main_arg6)) (fun j => W7 m ρ c (Proc.devRef .tc main_v47) (ix2 0 j)) = _
  rw [entry1_x m ρ c, entry1_w m ρ c, entry1_b m ρ c, stage_v67]

/-! ## Region 2: the first head's hidden layer, on the rows gathered at the trigger nodes -/

set_option maxHeartbeats 4000000 in
/-- Region 2 is entered with its input array at the gathered rows (the reference's stage `main_v74`). -/
theorem entry2_x : W9 m ρ c (Proc.devRef .tc main_v55) = val_main_v74 (F := Ideal) (A0 m c) (A1 m c) (A2 m c) (A3 m c) (A4 m c) (A5 m c) (A6 m c) (A7 m c) := by
  dsimp only [W9]
  after_results_simp
  rw [out1 m ρ c]
  walk_back
  rfl
set_option maxHeartbeats 4000000 in
theorem entry2_w : W9 m ρ c (Proc.devRef .tc main_arg8) = A8 m c := by
  walk_back
set_option maxHeartbeats 4000000 in
theorem entry2_b : (fun j : Fin 128 => (W9 m ρ c (Proc.devRef .tc main_v56) : S1x128.Idx → EReal) (ix2 0 j)) = fun j => A9 m c (ix1 j) := by
  have h : W9 m ρ c (Proc.devRef .tc main_v56) = shapeCast S1x128 (A9 m c) shapeCasts_S128_S1x128 := by
    walk_back
    rfl
  rw [h]
  exact bias_row _ _
theorem out2 : W10 m ρ c (Proc.devRef .tc main_v57) = val_main_v79 (F := Ideal) (A0 m c) (A1 m c) (A2 m c) (A3 m c) (A4 m c) (A5 m c) (A6 m c) (A7 m c) (A8 m c) (A9 m c) := by
  refine (W10_arr m ρ c 3).trans ((Region2.final (V9 m ρ) c).trans ?_)
  show lin true (W9 m ρ c (Proc.devRef .tc main_v55)) (W9 m ρ c (Proc.devRef .tc main_arg8)) (fun j => W9 m ρ c (Proc.devRef .tc main_v56) (ix2 0 j)) = _
  rw [entry2_x m ρ c, entry2_w m ρ c, entry2_b m ρ c, stage_v79]
/-- The gathered rows are an input of region 2: it leaves them as it found them. -/
theorem kept2_x : W10 m ρ c (Proc.devRef .tc main_v55) = val_main_v74 (F := Ideal) (A0 m c) (A1 m c) (A2 m c) (A3 m c) (A4 m c) (A5 m c) (A6 m c) (A7 m c) :=
  ((W10_arr m ρ c 0).trans (((dat2 (V9 m ρ) c).arrAt_in 0 rfl _).trans (A_eq2 (V9 m ρ) c 0))).trans (entry2_x m ρ c)

/-! ## Region 3: the first head's output layer (no relu) -/

set_option maxHeartbeats 4000000 in
theorem entry3_x : W11 m ρ c (Proc.devRef .tc main_v57) = val_main_v79 (F := Ideal) (A0 m c) (A1 m c) (A2 m c) (A3 m c) (A4 m c) (A5 m c) (A6 m c) (A7 m c) (A8 m c) (A9 m c) := by
  dsimp only [W11]
  after_results_simp
  exact out2 m ρ c
set_option maxHeartbeats 4000000 in
theorem entry3_w : W11 m ρ c (Proc.devRef .tc main_arg10) = A10 m c := by
  walk_back
set_option maxHeartbeats 4000000 in
theorem entry3_b : (fun j : Fin 128 => (W11 m ρ c (Proc.devRef .tc main_v58) : S1x128.Idx → EReal) (ix2 0 j)) = fun j => A11 m c (ix1 j) := by
  have h : W11 m ρ c (Proc.devRef .tc main_v58) = shapeCast S1x128 (A11 m c) shapeCasts_S128_S1x128 := by
    walk_back
    rfl
  rw [h]
  exact bias_row _ _
/-- Region 3 leaves its result array at the reference's first result (its stage `main_v83`). -/
theorem out3 : W12 m ρ c (Proc.devRef .tc main_v59) = val_main_v83 (F := Ideal) (A0 m c) (A1 m c) (A2 m c) (A3 m c) (A4 m c) (A5 m c) (A6 m c) (A7 m c) (A8 m c) (A9 m c) (A10 m c) (A11 m c) := by
  refine (W12_arr m ρ c 3).trans ((Region3.final (V11 m ρ) c).trans ?_)
  show lin false (W11 m ρ c (Proc.devRef .tc main_v57)) (W11 m ρ c (Proc.devRef .tc main_arg10)) (fun j => W11 m ρ c (Proc.devRef .tc main_v58) (ix2 0 j)) = _
  rw [entry3_x m ρ c, entry3_w m ρ c, entry3_b m ρ c, stage_v83]

/-! ## Region 4: the second head's hidden layer, on the same gathered rows -/

set_option maxHeartbeats 4000000 in
theorem entry4_x : W13 m ρ c (Proc.devRef .tc main_v55) = val_main_v74 (F := Ideal) (A0 m c) (A1 m c) (A2 m c) (A3 m c) (A4 m c) (A5 m c) (A6 m c) (A7 m c) := by
  dsimp only [W13]
  after_results_simp
  rw [W12_of_ne m ρ c main_v55 (by decide)]
  dsimp only [W11]
  after_results_simp
  exact kept2_x m ρ c
set_option maxHeartbeats 4000000 in
theorem entry4_w : W13 m ρ c (Proc.devRef .tc main_arg12) = A12 m c := by
  walk_back
set_option maxHeartbeats 4000000 in
theorem entry4_b : (fun j : Fin 64 => (W13 m ρ c (Proc.devRef .tc main_v60) : S1x64.Idx → EReal) (ix2 0 j)) = fun j => A13 m c (ix1 j) := by
  have h : W13 m ρ c (Proc.devRef .tc main_v60) = shapeCast S1x64 (A13 m c) shapeCasts_S64_S1x64 := by
    walk_back
    rfl
  rw [h]
  exact bias_row _ _
theorem out4 : W14 m ρ c (Proc.devRef .tc main_v61) = val_main_v88 (F := Ideal) (A0 m c) (A1 m c) (A2 m c) (A3 m c) (A4 m c) (A5 m c) (A6 m c) (A7 m c) (A12 m c) (A13 m c) := by
  refine (W14_arr m ρ c 3).trans ((Region4.final (V13 m ρ) c).trans ?_)
  show lin true (W13 m ρ c (Proc.devRef .tc main_v55)) (W13 m ρ c (Proc.devRef .tc main_arg12)) (fun j => W13 m ρ c (Proc.devRef .tc main_v60) (ix2 0 j)) = _
  rw [entry4_x m ρ c, entry4_w m ρ c, entry4_b m ρ c, stage_v88]

/-! ## Region 5: the second head's output layer (no relu) -/

set_option maxHeartbeats 4000000 in
theorem entry5_x : W15 m ρ c (Proc.devRef .tc main_v61) = val_main_v88 (F := Ideal) (A0 m c) (A1 m c) (A2 m c) (A3 m c) (A4 m c) (A5 m c) (A6 m c) (A7 m c) (A12 m c) (A13 m c) := by
  dsimp only [W15]
  after_results_simp
  exact out4 m ρ c
set_option maxHeartbeats 4000000 in
theorem entry5_w : W15 m ρ c (Proc.devRef .tc main_arg14) = A14 m c := by
  walk_back
set_option maxHeartbeats 4000000 in
theorem entry5_b : (fun j : Fin 64 => (W15 m ρ c (Proc.devRef .tc main_v62) : S1x64.Idx → EReal) (ix2 0 j)) = fun j => A15 m c (ix1 j) := by
  have h : W15 m ρ c (Proc.devRef .tc main_v62) = shapeCast S1x64 (A15 m c) shapeCasts_S64_S1x64 := by
    walk_back
    rfl
  rw [h]
  exact bias_row _ _

/-! ## The two results at the return -/

/-- The second result: what region 5 leaves, the reference's stage `main_v92`. -/
theorem result1 : W16 m ρ c (Proc.devRef .tc main_v63) = val_main_v92 (F := Ideal) (A0 m c) (A1 m c) (A2 m c) (A3 m c) (A4 m c) (A5 m c) (A6 m c) (A7 m c) (A12 m c) (A13 m c) (A14 m c) (A15 m c) := by
  refine (W16_arr m ρ c 3).trans ((Region5.final (V15 m ρ) c).trans ?_)
  show lin false (W15 m ρ c (Proc.devRef .tc main_v61)) (W15 m ρ c (Proc.devRef .tc main_arg14)) (fun j => W15 m ρ c (Proc.devRef .tc main_v62) (ix2 0 j)) = _
  rw [entry5_x m ρ c, entry5_w m ρ c, entry5_b m ρ c, stage_v92]

set_option maxHeartbeats 4000000 in
/-- The first result: what region 3 left, which nothing after it writes. -/
theorem result0 : W16 m ρ c (Proc.devRef .tc main_v59) = val_main_v83 (F := Ideal) (A0 m c) (A1 m c) (A2 m c) (A3 m c) (A4 m c) (A5 m c) (A6 m c) (A7 m c) (A8 m c) (A9 m c) (A10 m c) (A11 m c) := by
  rw [W16_of_ne m ρ c main_v59 (by decide)]
  dsimp only [W15]
  after_results_simp
  rw [W14_of_ne m ρ c main_v59 (by decide)]
  dsimp only [W13]
  after_results_simp
  exact out3 m ρ c

end Cert.KernelIdeal.Chain

end
-- ==== Proof.lean ====
/-
  The claim: the kernel program (six tiled dense layers as pallas_calls, the sparse graph aggregation between them as host
  operations) and the reference compute the same two arrays over the extended reals, and all three programs run and keep
  their arguments.

  Frames: the kernel program's two instances by their generated frame certificates; the reference's by its generated run.
  The idealization rewrote no operation, so `preserves` asks nothing.
  Values: the kernel program's run, with its two result buffers named at the last boundary's contents (`Named.run_named`),
  ends with them at the reference's own last stages of the arguments (`Chain.result0`, `Chain.result1`: every host
  operation is the reference's, every pallas_call the dense layer the reference computes by one contraction, a sum over
  the inner axis that no tiling of the rows changes); the reference's generated run ends with its results at those stages
  of its own arguments, which agree with the kernel program's.
-/
import proofs.«137440_j38895223833221_1_alg».proof.Defs
import proofs.«137440_j38895223833221_1_alg».proof.Proof.Gen.Kernel
import proofs.«137440_j38895223833221_1_alg».proof.Proof.Gen.Kernel.Frame
import proofs.«137440_j38895223833221_1_alg».proof.Proof.Gen.KernelIdeal
import proofs.«137440_j38895223833221_1_alg».proof.Proof.Gen.KernelIdeal.Frame
import proofs.«137440_j38895223833221_1_alg».proof.Proof.Gen.ReferenceIdeal
import proofs.«137440_j38895223833221_1_alg».proof.Proof.Gen.ReferenceIdeal.Run
import proofs.«137440_j38895223833221_1_alg».proof.Proof.Gen.ReferenceIdeal.Read
import proofs.«137440_j38895223833221_1_alg».proof.Proof.Gen.Pre_finite_inputs
import proofs.«137440_j38895223833221_1_alg».proof.Proof.KRun
import proofs.«137440_j38895223833221_1_alg».proof.Proof.KChain
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with their two results at the reference's last stages of the (agreeing) arguments. -/
theorem algebraic : Cert.algebraic_KernelIdeal_ReferenceIdeal := by
  intro m ρ m' ρ' _ hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.result0 m ρ c), (h c).2.1.trans (Cert.KernelIdeal.Chain.result1 m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v83_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
    · rw [Cert.ReferenceIdeal.Read.val_main_v92_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
